-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S1000x128 : Shape := ⟨2, ![1000, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x128 .f32) (main_arg1 : IVec S65536 32) (main_arg2 : FVec F S1000x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 1000#32
  let main_v13 : IVec S65536 32 := broadcastInDim S65536 ![] bcast_S_S65536 main_c_4
  let main_v14 : IVec S65536 1 := cmpi .slt main_arg1 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x128 : Shape := ⟨2, ![65536, 128]⟩
abbrev S65536 : Shape := ⟨1, ![65536]⟩
abbrev S1000x128 : Shape := ⟨2, ![1000, 128]⟩
abbrev S65536x1 : Shape := ⟨2, ![65536, 1]⟩
abbrev S_ : Shape := ⟨0, ![]⟩
abbrev S1024x128 : Shape := ⟨2, ![1024, 128]⟩
abbrev S1024 : Shape := ⟨1, ![1024]⟩
abbrev S1 : Shape := ⟨1, ![1]⟩
abbrev S1024x256 : Shape := ⟨2, ![1024, 256]⟩
abbrev S32x1x1 : Shape := ⟨3, ![32, 1, 1]⟩
abbrev S2048x128 : Shape := ⟨2, ![2048, 128]⟩
abbrev S2048x1 : Shape := ⟨2, ![2048, 1]⟩
abbrev S1x1x1 : Shape := ⟨3, ![1, 1, 1]⟩
abbrev S2048x1024 : Shape := ⟨2, ![2048, 1024]⟩
abbrev S2048x256 : Shape := ⟨2, ![2048, 256]⟩
abbrev S2048 : Shape := ⟨1, ![2048]⟩
abbrev S1x1 : Shape := ⟨2, ![1, 1]⟩

abbrev nBuf : Space → Nat
  | .hbm => 29
  | .vmem => 7
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S1000x128, .f32⟩
  | .hbm, ⟨3, _⟩ => ⟨S65536x1, .i32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024, .bf16⟩
  | .hbm, ⟨11, _⟩ => ⟨S1024, .f32⟩
  | .hbm, ⟨12, _⟩ => ⟨S1024, .f32⟩
  | .hbm, ⟨13, _⟩ => ⟨S1024, .bf16⟩
  | .hbm, ⟨14, _⟩ => ⟨S1024x128, .bf16⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S1, .i32⟩
  | .hbm, ⟨19, _⟩ => ⟨S1024x128, .bf16⟩
  | .hbm, ⟨20, _⟩ => ⟨S_, .i32⟩
  | .hbm, ⟨21, _⟩ => ⟨S1, .i32⟩
  | .hbm, ⟨22, _⟩ => ⟨S1024x128, .bf16⟩
  | .hbm, ⟨23, _⟩ => ⟨S1024x256, .bf16⟩
  | .hbm, ⟨24, _⟩ => ⟨S32x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1024x256, .bf16⟩
  | .local _ .vmem, ⟨5, _⟩ => ⟨S1x1x1, .f32⟩
  | .local _ .vmem, ⟨6, _⟩ => ⟨S1x1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S65536x1 : S65536.ShapeCasts S65536x1
  pads_S1000x128_S1024x128_0240_000 : S1000x128.Pads (![0, 0] : Fin 2 → Nat) ![24, 0] ![0, 0] S1024x128
  h_S_ : 0 < S_.numel
  reducesTo_S1024x128_S1024_d1 : S1024x128.ReducesTo [1] S1024
  bitsLt_bf16_f32 : FTy.bits .bf16 < FTy.bits .f32
  bcast_S_S1024x128 : S_.BroadcastsInDim S1024x128 (![] : Fin 0 → Fin S1024x128.rank)
  bcast_S_S1 : S_.BroadcastsInDim S1 (![] : Fin 0 → Fin S1.rank)
  concatenates_S1024x128_S1024x128_S1024x256_d1 : Shape.Concatenates [S1024x128, S1024x128] S1024x256 1
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S2048x1024_d1_w32 : S2048x1024.Iotas .tc 32 [1]
  broadcasts_S2048x1_S2048x1024 : S2048x1.Broadcasts S2048x1024
  natLt_1_32 : 1 < 32
  slices_S2048x256_o0_0_S2048x128 : S2048x256.Slices ![0, 0] S2048x128
  slices_S2048x256_o0_128_S2048x128 : S2048x256.Slices ![0, 128] S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  scatter_S1024x128_S1_S1024_0_1_1_0_wf : ScatterDims.WF S1024x128 S1 S1024 [0] [1] [1] 0
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)

variable [Facts₀]

def scatter_S1024x128_S1_S1024_0_1_1_0 : ScatterDims S1024x128 S1 S1024 where
  updateWindowDims := [0]
  insertedWindowDims := [1]
  scatterDimsToOperandDims := [1]
  indexVectorDim := 0
  wf := scatter_S1024x128_S1_S1024_0_1_1_0_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536 : Shape := ⟨1, ![65536]⟩
abbrev S1000x128 : Shape := ⟨2, ![1000, 128]⟩
abbrev S_ : Shape := ⟨0, ![]⟩
abbrev S65536x1 : Shape := ⟨2, ![65536, 1]⟩
abbrev S128x1000 : Shape := ⟨2, ![128, 1000]⟩
abbrev S65536x1000 : Shape := ⟨2, ![65536, 1000]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S1000x128, .f32⟩
  | .hbm, ⟨3, _⟩ => ⟨S65536x128, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x128, .f32⟩
  | .hbm, ⟨16, _⟩ => ⟨S65536x128, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S65536x1, .f32⟩
  | .hbm, ⟨21, _⟩ => ⟨S128x1000, .f32⟩
  | .hbm, ⟨22, _⟩ => ⟨S65536x1000, .f32⟩
  | .hbm, ⟨23, _⟩ => ⟨S_, .f32⟩
  | .hbm, ⟨24, _⟩ => ⟨S65536x1000, .f32⟩
  | .hbm, ⟨25, _⟩ => ⟨S65536x1000, .f32⟩
  | .hbm, ⟨26, _⟩ => ⟨S65536x1000, .f32⟩
  | .hbm, ⟨27, _⟩ => ⟨S65536x1000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S65536x1000, .f32⟩
  | .hbm, ⟨32, _⟩ => ⟨S65536x1000, .f32⟩
  | .hbm, ⟨33, _⟩ => ⟨S_, .f32⟩
  | .hbm, ⟨34, _⟩ => ⟨S65536x1000, .f32⟩
  | .hbm, ⟨35, _⟩ => ⟨S65536x1000, .f32⟩
  | .hbm, ⟨36, _⟩ => ⟨S65536x1, .i32⟩
  | .hbm, ⟨37, _⟩ => ⟨S_, .i32⟩
  | .hbm, ⟨38, _⟩ => ⟨S65536x1, .i32⟩
  | .hbm, ⟨39, _⟩ => ⟨S65536x1, .i1⟩
  | .hbm, ⟨40, _⟩ => ⟨S_, .i32⟩
  | .hbm, ⟨41, _⟩ => ⟨S65536x1, .i32⟩
  | .hbm, ⟨42, _⟩ => ⟨S65536x1, .i32⟩
  | .hbm, ⟨43, _⟩ => ⟨S65536x1, .i32⟩
  | .hbm, ⟨44, _⟩ => ⟨S65536x1x1, .i32⟩
  | .hbm, ⟨45, _⟩ => ⟨S1, .i32⟩
  | .hbm, ⟨46, _⟩ => ⟨S_, .i32⟩
  | .hbm, ⟨47, _⟩ => ⟨S65536x1x1, .i32⟩
  | .hbm, ⟨48, _⟩ => ⟨S65536x1x1, .i1⟩
  | .hbm, ⟨49, _⟩ => ⟨S1x1x1, .i32⟩
  | .hbm, ⟨50, _⟩ => ⟨S65536x1x1, .i32⟩
  | .hbm, ⟨51, _⟩ => ⟨S65536x1x1, .i1⟩
  | .hbm, ⟨52, _⟩ => ⟨S65536x1x1, .i1⟩
  | .hbm, ⟨53, _⟩ => ⟨S_, .i1⟩
  | .hbm, ⟨54, _⟩ => ⟨S65536x1, .i1⟩
  | .hbm, ⟨55, _⟩ => ⟨S65536x1, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v22 : Ref sig .tc := ⟨.hbm, 58, rfl⟩
abbrev main_cst_5 : Ref sig .tc := ⟨.hbm, 59, rfl⟩
abbrev main_v23 : Ref sig .tc := ⟨.hbm, 60, rfl⟩
abbrev main_cst_6 : Ref sig .tc := ⟨.hbm, 61, rfl⟩
abbrev main_v24 : Ref sig .tc := ⟨.hbm, 62, rfl⟩

abbrev nD : Nat := 1
abbrev τ : Topo := Topo.v7x

variable {F : FTy → Type} [FloatOps F]

class Facts₀ : Prop where
  reducesTo_S65536x128_S65536_d1 : S65536x128.ReducesTo [1] S65536
  h_S_ : 0 < S_.numel
  bcast_S65536_S65536x1_0 : S65536.BroadcastsInDim S65536x1 (![0] : Fin 1 → Fin S65536x1.rank)
  bcast_S_S65536 : S_.BroadcastsInDim S65536 (![] : Fin 0 → Fin S65536.rank)
  transposes_S1000x128_S128x1000_1_0 : S1000x128.Transposes [1, 0] S128x1000
  bcast_S_S65536x1000 : S_.BroadcastsInDim S65536x1000 (![] : Fin 0 → Fin S65536x1000.rank)
  bcast_S65536x1_S65536x1000_0_1 : S65536x1.BroadcastsInDim S65536x1000 (![0, 1] : Fin 2 → Fin S65536x1000.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  reducesTo_S65536x1_S_d0_1 : S65536x1.ReducesTo [0, 1] S_
  gather_S1000x128_S65536x1_S65536x128_1_0_n_n_0_1_1128_wf : GatherDims.WF S1000x128 S65536x1 S65536x128 [1] [0] [] [0] [] 1 ![1, 128]
  dot_S65536x128_S128x1000_S65536x1000_1_0_0_1_n_n_wf : DotDims.WF S65536x128 S128x1000 S65536x1000 [1] [0] [0] [1] [] []
  gather_S65536x1000_S65536x1x1_S65536x1_n_1_0_0_1_2_11_wf : GatherDims.WF S65536x1000 S65536x1x1 S65536x1 [] [1] [0] [1] [0] 2 ![1, 1]

variable [Facts₀]

def gather_S1000x128_S65536x1_S65536x128_1_0_n_n_0_1_1128 : GatherDims S1000x128 S65536x1 S65536x128 where
  offsetDims := [1]
  collapsedSliceDims := [0]
  operandBatchingDims := []
  startIndicesBatchingDims := []
  startIndexMap := [0]
  indexVectorDim := 1
  sliceSizes := ![1, 128]
  wf := gather_S1000x128_S65536x1_S65536x128_1_0_n_n_0_1_1128_wf
def dot_S65536x128_S128x1000_S65536x1000_1_0_0_1_n_n : DotDims S65536x128 S128x1000 S65536x1000 where
  lhsContracting := [1]
  rhsContracting := [0]
  lhsNonContracting := [0]
  rhsNonContracting := [1]
  lhsBatch := []
  rhsBatch := []
  wf := dot_S65536x128_S128x1000_S65536x1000_1_0_0_1_n_n_wf
def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.LibOneHotTake.lean ====
/-
  GENERAL LEMMAS (no program imported): a row entry taken at a label two ways, and the words that make the two agree.

  A Pallas kernel often cannot lower `take_along_axis` and takes `x[p, l]` instead as the row summed against the one-hot
  mask `[k = l]` of the lane counter; jnp's own `take_along_axis(x, l[:, None], axis=1)` prints as a wrap of negative
  labels, an in-range mask folded by `and`, a batched `stablehlo.gather` that clamps its start index, and a select
  against a fill word. This file reads each piece at an index:
    * `oneHot_sum`            — the masked sum over the C columns is the entry at the label, for a label below C;
    * `toNat_lt_of_signed_range`, `slt_zero_of_small`, `sge_zero_of_small`, `sle_of_small`, `clamp_of_small`
                                — a 32-bit word in [0, n) signed is below n unsigned; such a word is not negative, is at
                                  most any bound it is at most, and is its own value after the gather's signed clamp;
    * `foldl_andi_ones`, `reduce_andi_of_forall`
                                — a `stablehlo.reduce` by `and` from 1 over bits that are all 1 is 1 (the converse of
                                  the library's `Host.reduce_andi_eq_one`);
    * `rowTakeDims`, `gather_rowTake_apply`
                                — the gather of `take_along_axis` along axis 1 of an [N, C] operand (batching axis 0,
                                  collapsed and start-indexed axis 1, start indices [N, 1, 1]) reads, at row p, the
                                  operand at (p, start index of row p read signed and clamped into [0, C - 1]).
-/
import Idealize.ShloMosaic.PureOps.Reduce
import Idealize.ShloMosaic.Lib.ValueIdx
import Idealize.ShloMosaic.Lib.StableHlo.Predicate

noncomputable section

namespace Cert.LibOneHotTake

open Idealize.ShloMosaic Idealize.ShloMosaic.ValueIdx

/-! ## The one-hot masked sum -/

/-- Column k's word is the label exactly when k is the label's value (C columns, C below 2³²). -/
theorem col_word_eq_iff {C : Nat} (hC : C ≤ 2 ^ 32) (l : BitVec 32) (hl : l.toNat < C) (k : Fin C) :
    BitVec.ofNat 32 k.val = l ↔ k = ⟨l.toNat, hl⟩ := by
  constructor
  · intro h
    apply Fin.ext
    have := congrArg BitVec.toNat h
    rw [BitVec.toNat_ofNat, Nat.mod_eq_of_lt (by have := k.isLt; omega)] at this
    exact this
  · intro h
    subst h
    exact BitVec.eq_of_toNat_eq (by rw [BitVec.toNat_ofNat, Nat.mod_eq_of_lt (by omega)])

/-- THE ONE-HOT SUM. In any additive commutative monoid, a row summed against the mask "column k's word is the label",
    with `z = 0` in the masked-out places, is the row's entry at the label, for a label below the column count: every
    other column contributes zero. (On the extended reals `0 + a = a` for every a, so nothing is asked of the row.) -/
theorem oneHot_sum {M : Type} [AddCommMonoid M] {C : Nat} (hC : C ≤ 2 ^ 32) (x : Fin C → M) (z : M) (hz : z = 0)
    (l : BitVec 32) (hl : l.toNat < C) :
    ∑ k : Fin C, Scalar.select (IntOp.cmpi .eq (BitVec.ofNat 32 k.val) l) (x k) z = x ⟨l.toNat, hl⟩ := by
  rw [Finset.sum_eq_single (⟨l.toNat, hl⟩ : Fin C)]
  · have h1 : IntOp.cmpi .eq (BitVec.ofNat 32 (⟨l.toNat, hl⟩ : Fin C).val) l = 1#1 :=
      StableHlo.Predicate.cmpi_eq_iff.mpr ((col_word_eq_iff hC l hl ⟨l.toNat, hl⟩).mpr rfl)
    rw [h1, select_one]
  · intro k _ hk
    have h0 : IntOp.cmpi .eq (BitVec.ofNat 32 k.val) l = 0#1 :=
      eq_zero_of_ne_one fun h => hk ((col_word_eq_iff hC l hl k).mp (StableHlo.Predicate.cmpi_eq_iff.mp h))
    rw [h0, select_zero, hz]
  · intro h; exact absurd (Finset.mem_univ _) h

/-! ## Small non-negative words -/

/-- A word in [0, n) as a signed number is below n as an unsigned one. -/
theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  rw [e0] at h0
  rw [StableHlo.Predicate.toInt_ofNat_small n hn] at h1
  have hw := w.isLt
  have hi := BitVec.toInt_eq_toNat_cond w
  by_cases hc : 2 * w.toNat < 2 ^ 32
  · rw [if_pos hc] at hi; omega
  · rw [if_neg hc] at hi; omega

/-- A word below 2³¹ is not negative, -/
theorem slt_zero_of_small (w : BitVec 32) (h : w.toNat < 2 ^ 31) : IntOp.cmpi .slt w 0#32 = 0#1 :=
  eq_zero_of_ne_one fun e => by
    have := (StableHlo.Predicate.slt_iff_toNat h (by decide)).mp e
    simp at this
/-- is at least zero, -/
theorem sge_zero_of_small (w : BitVec 32) (h : w.toNat < 2 ^ 31) : IntOp.cmpi .sge w 0#32 = 1#1 :=
  (StableHlo.Predicate.sge_iff_toNat h (by decide)).mpr (by simp)
/-- is at most the word of any bound below 2³¹ that its value is at most, -/
theorem sle_of_small (w : BitVec 32) (n : Nat) (hn : n < 2 ^ 31) (h : w.toNat ≤ n) :
    IntOp.cmpi .sle w (BitVec.ofNat 32 n) = 1#1 :=
  (StableHlo.Predicate.sle_iff_toNat (by omega) (by rw [BitVec.toNat_ofNat, Nat.mod_eq_of_lt (by omega)]; exact hn)).mpr (by
    rw [BitVec.toNat_ofNat, Nat.mod_eq_of_lt (by omega)]; exact h)
/-- and, read signed and clamped into [0, n], is its own value. -/
theorem clamp_of_small (w : BitVec 32) (n : Nat) (hn : n < 2 ^ 31) (h : w.toNat ≤ n) : min w.toInt.toNat n = w.toNat := by
  rw [StableHlo.Predicate.toInt_eq_toNat_of_lt (by omega), Int.toNat_natCast]
  omega

/-! ## An all-reduction by `and` over ones -/

/-- A left fold by `and` from 1 over bits that are all 1 is 1. -/
theorem foldl_andi_ones {ι : Type} (f : ι → BitVec 1) : ∀ (L : List ι), (∀ n ∈ L, f n = 1#1) →
    L.foldl (fun r n => IntOp.andi r (f n)) 1#1 = 1#1
  | [], _ => rfl
  | a :: L, h => by
    rw [List.foldl_cons, h a List.mem_cons_self]
    exact foldl_andi_ones f L fun n hn => h n (List.mem_cons_of_mem _ hn)

/-- A `stablehlo.reduce` by `and`, from an initial value whose element is 1, of an operand that is 1 everywhere is 1 at
    every result index, whatever axes it reduces. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones _ _ fun n _ => hx n

/-! ## `take_along_axis` along axis 1: the batched gather -/

/-- The dimension numbers jnp's `take_along_axis(x, idx, axis=1)` gives `stablehlo.gather` for an operand [N, C], start
    indices [N, 1, 1] and a result [N, 1]: no offset axes, axis 1 collapsed and start-indexed, axis 0 batching on both
    sides, the index vector on axis 2, slices of one element. Their conditions are decided on a program's literal shapes;
    a printed record with these fields is this one (its fields agree and `wf` is a proof). -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW p: the operand's row p at the start index `idx[p, 0, 0]`, read signed and clamped into
    [0, C − 1] as StableHLO's gather clamps every start index. -/
theorem gather_rowTake_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  refine congrArg x (funext fun a => Fin.ext ?_)
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching (rowTakeDims N C wf) _ _ 0 (List.mem_singleton.mpr rfl),
      GatherDims.offCoord_eq_zero (rowTakeDims N C wf) _ 0
        (fun h => ((GatherDims.mem_sKept _ _).mp h).2 (List.mem_singleton.mpr rfl)), Nat.zero_add, Nat.add_zero]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = min (idx (ix3 p (0 : Fin 1) (0 : Fin 1))).toInt.toNat (C - 1)
    rw [GatherDims.batchCoord_eq_zero (rowTakeDims N C wf) _ 1 (by show (1 : Fin 2) ∉ ([0] : List (Fin 2)); decide),
      GatherDims.offCoord_eq_zero (rowTakeDims N C wf) _ 1
        (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1))
        ⟨List.idxOf (1 : Fin 2) (rowTakeDims N C wf).startIndexMap, List.idxOf_lt_length_iff.2 (List.mem_singleton.mpr rfl)⟩
        = ix3 p (0 : Fin 1) (0 : Fin 1) := funext fun b => Fin.ext (by
      match b with
      | ⟨0, _⟩ => rfl
      | ⟨1, _⟩ => rfl
      | ⟨2, _⟩ => rfl)
    rw [hsi]
    rfl

end Cert.LibOneHotTake

end
-- ==== Proof.PreDecode.lean ====
/-
  What the precondition says of the arguments.

  The precondition is the conjunction of four all-reductions: every entry of the batch and of the centers is below +∞ in
  absolute value, every label is at least 0 and below 1000 as a signed word.  Of it the proof uses that every entry of the
  centers is a real (so that a center's squared norm is a real) and that every label word's value is below 1000.
-/
import proofs.«416526_j15925738733576_3_alg».proof.Pre_finite_inputs
import proofs.«416526_j15925738733576_3_alg».proof.Proof.LibOneHotTake
import Idealize.ShloMosaic.Lib.ReduceAll
import Idealize.ShloMosaic.Lib.Affine
import Idealize.ShloMosaic.Lib.StableHlo.Predicate
import Idealize.ShloMosaic.PureOps.Ideal.Laws

noncomputable section

namespace Cert.CenterLoss.Pre

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below the word of +∞ is a real. -/
theorem real_of_abs_lt (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  rw [StableHlo.Predicate.ofBool_eq_one_iff] at h
  have hlt : max a (-a) < ⊤ := by simpa using h
  induction a using EReal.rec with
  | bot => simp at hlt
  | top => simp at hlt
  | coe r => exact ⟨r, rfl⟩

/-- THE PRECONDITION DECODED: the centers' entries are reals and the label words' values are below 1000. -/
theorem decode (x : FVec Ideal S65536x128 .f32) (L : IVec S65536 32) (Cn : FVec Ideal S1000x128 .f32)
    (h : fn (F := Ideal) x L Cn = fun _ => 1#1) :
    (∀ j, ∃ a : ℝ, Cn j = (a : EReal)) ∧ (∀ i : Fin 65536, (L (ix1 i)).toNat < 1000) := by
  have h0 := congrFun h ValueIdx.ix0
  dsimp only [fn, fn_part1] at h0
  simp only [andi] at h0
  rw [IntOp.andi_eq_one, IntOp.andi_eq_one, IntOp.andi_eq_one] at h0
  obtain ⟨⟨⟨-, hc⟩, hge⟩, hlt⟩ := h0
  constructor
  · intro j
    have e := Host.reduce_andi_all _ _ _ _ _ hc j
    refine real_of_abs_lt (Cn j) ?_
    rw [← e]
    show _ = FloatOps.cmpf .olt (FloatOps.hostAbsf (Cn j)) (broadcastInDim S1000x128 ![] Facts.bcast_S_S1000x128 (constant S_ .f32 0x7F800000#32) j)
    rw [StableHlo.Predicate.bcast_scalar _ Facts.h_S_]
    rfl
  · intro i
    have e0 := Host.reduce_andi_all _ _ _ _ _ hge (ix1 i)
    have e1 := Host.reduce_andi_all _ _ _ _ _ hlt (ix1 i)
    refine Cert.LibOneHotTake.toNat_lt_of_signed_range (L (ix1 i)) 1000 (by norm_num) ?_ ?_
    · rw [← e0]
      show _ = IntOp.cmpi .sge (L (ix1 i)) (broadcastInDim S65536 ![] Facts.bcast_S_S65536 (constantI S_ 32 0#32) (ix1 i))
      rw [StableHlo.Predicate.bcast_scalar _ Facts.h_S_]
      rfl
    · rw [← e1]
      show _ = IntOp.cmpi .slt (L (ix1 i)) (broadcastInDim S65536 ![] Facts.bcast_S_S65536 (constantI S_ 32 1000#32) (ix1 i))
      rw [StableHlo.Predicate.bcast_scalar _ Facts.h_S_]
      rfl

end Cert.CenterLoss.Pre

end
-- ==== Proof.Spec.lean ====
/-
  THE SPECIFICATION (no program imported): the center loss both programs compute, as one function of the argument arrays.

  For a batch `X` of 65536 rows of 128 features, class labels `L` in [0, 1000) and a table `Cn` of 1000 centers, row `i`
  with label `l` contributes the squared distance  ‖x_i‖² + ‖c_l‖² − 2·⟨x_i, c_l⟩  clipped into [1e-12, 1e12], and the result is the
  mean of the 65536 contributions.  The kernel finds the center's row by a one-hot matrix product and adds the
  contributions block by block (32 blocks of 2048 rows); the reference forms the whole distance matrix, clips it and takes
  column `l` of row `i`.  Here are the function itself, the regrouping of its sum into the kernel's blocks, and the few
  facts about finite extended reals the two readings need (a finite sum of squares of reals is a real, and `s − s = 0`
  for a real `s`: the kernel carries the center's squared norm as a high part plus the low part `s − s`).
-/
import Idealize.ShloMosaic.PureOps.Ideal
import Idealize.ShloMosaic.Lib.ValueIdx
import Mathlib.Algebra.BigOperators.Fin
import Mathlib.Logic.Equiv.Fin.Basic

noncomputable section

namespace Cert.CenterLoss

open Idealize.ShloMosaic Idealize.ShloMosaic.ValueIdx

abbrev SX : Shape := ⟨2, ![65536, 128]⟩
abbrev SL : Shape := ⟨1, ![65536]⟩
abbrev SC : Shape := ⟨2, ![1000, 128]⟩

/-- The clip's lower bound, f32(1e-12), -/
def lo : EReal := Ideal.ofBits .f32 0x2B8CBCCC#32
/-- its upper bound, f32(1e12), -/
def hi : EReal := Ideal.ofBits .f32 0x5368D4A5#32
/-- and the factor 2 of the cross term: the same three words in both programs, never evaluated. -/
def two : EReal := Ideal.ofBits .f32 0x40000000#32

/-- Row `i`'s class: its label word's value (class 0 for a word outside [0, 1000), which the precondition excludes). -/
def lab (L : SL.Idx → BitVec 32) (i : Fin 65536) : Fin 1000 :=
  if h : (L (ix1 i)).toNat < 1000 then ⟨(L (ix1 i)).toNat, h⟩ else 0

theorem lab_val (L : SL.Idx → BitVec 32) (i : Fin 65536) (h : (L (ix1 i)).toNat < 1000) : (lab L i).val = (L (ix1 i)).toNat := by
  unfold lab; rw [dif_pos h]

/-- The squared norm of center `l`. -/
def cSq (Cn : SC.Idx → EReal) (l : Fin 1000) : EReal := ∑ d : Fin 128, Cn (ix2 l d) * Cn (ix2 l d)

/-- Row `i`'s contribution against center `l`: ‖x_i‖² + ‖c_l‖² − 2⟨x_i, c_l⟩, clipped. -/
def rowLoss (X : SX.Idx → EReal) (Cn : SC.Idx → EReal) (i : Fin 65536) (l : Fin 1000) : EReal :=
  min hi (max lo (((∑ d : Fin 128, X (ix2 i d) * X (ix2 i d)) + cSq Cn l) - two * ∑ d : Fin 128, X (ix2 i d) * Cn (ix2 l d)))

/-- The sum of all rows' contributions, each against its own label's center. -/
def total (X : SX.Idx → EReal) (L : SL.Idx → BitVec 32) (Cn : SC.Idx → EReal) : EReal :=
  ∑ i : Fin 65536, rowLoss X Cn i (lab L i)

/-- THE RESULT both programs end with: the total divided by the batch size f32(65536), as the one-element array. -/
def meanLoss (X : SX.Idx → EReal) (L : SL.Idx → BitVec 32) (Cn : SC.Idx → EReal) : (⟨0, ![]⟩ : Shape).Idx → EReal :=
  fun _ => Ideal.div (total X L Cn) (Ideal.ofBits .f32 0x47800000#32)

/-- Row `r` of block `t`. -/
abbrev rowOf (t : Fin 32) (r : Fin 2048) : Fin 65536 := ⟨2048 * t.val + r.val, by have := t.isLt; have := r.isLt; omega⟩

/-- What block `t` of 2048 rows contributes. -/
def blockTotal (X : SX.Idx → EReal) (L : SL.Idx → BitVec 32) (Cn : SC.Idx → EReal) (t : Fin 32) : EReal :=
  ∑ r : Fin 2048, rowLoss X Cn (rowOf t r) (lab L (rowOf t r))

/-- A sum over the 65536 rows, taken block by block. -/
theorem sum_blocks {M : Type} [AddCommMonoid M] (f : Fin 65536 → M) :
    ∑ i : Fin 65536, f i = ∑ t : Fin 32, ∑ r : Fin 2048, f (rowOf t r) := by
  rw [← Fintype.sum_prod_type']
  refine (Equiv.sum_comp (finProdFinEquiv : Fin 32 × Fin 2048 ≃ Fin (32 * 2048)) f).symm.trans ?_
  refine Finset.sum_congr rfl fun p _ => congrArg f (Fin.ext ?_)
  show p.2.val + 2048 * p.1.val = 2048 * p.1.val + p.2.val
  omega

/-- The total is the sum of the 32 blocks' totals. -/
theorem total_eq_blocks (X : SX.Idx → EReal) (L : SL.Idx → BitVec 32) (Cn : SC.Idx → EReal) :
    total X L Cn = ∑ t : Fin 32, blockTotal X L Cn t :=
  sum_blocks fun i => rowLoss X Cn i (lab L i)

/-! ## Finite extended reals -/

/-- The coercion of the reals commutes with finite sums. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A finite sum of squares of reals is a real. -/
theorem sum_sq_real {n : Nat} (c : Fin n → EReal) (hc : ∀ d, ∃ a : ℝ, c d = (a : EReal)) :
    ∃ s : ℝ, ∑ d, c d * c d = (s : EReal) := by
  choose a ha using hc
  refine ⟨∑ d, a d * a d, ?_⟩
  rw [coe_sum]
  exact Finset.sum_congr rfl fun d _ => by rw [ha d, EReal.coe_mul]

/-- A real minus itself is zero, on the extended reals too. -/
theorem coe_sub_self (s : ℝ) : (s : EReal) - (s : EReal) = 0 := by
  rw [← EReal.coe_sub, sub_self, EReal.coe_zero]

/-- The squared norm of a center with finite entries is a real. -/
theorem cSq_real (Cn : SC.Idx → EReal) (hC : ∀ j, ∃ a : ℝ, Cn j = (a : EReal)) (l : Fin 1000) : ∃ s : ℝ, cSq Cn l = (s : EReal) :=
  sum_sq_real (fun d => Cn (ix2 l d)) (fun d => hC _)

end Cert.CenterLoss

end
-- ==== Proof.LibScatterSet.lean ====
/-
  GENERAL LEMMAS (no program imported): a scatter whose body returns the update, read at one element.

  `Host.scatter d f x idx upd` is the left fold, over the update positions in row-major order, of "replace the element
  the update lands on by `f` of it and the update".  Read at one element `i`:
    * `scatter_of_not_hit`     — when no update lands on `i` the element is the operand's, whatever the body `f`;
    * `scatter_set_of_hit`     — when the body returns the update (jax's `x.at[idx].set(v)`) and exactly one update
                                  position `j₀` lands on `i`, the element is that update;
    * `colSetDims`, `colSet_resultIdx`, `colSet_apply_col`, `colSet_apply_other`
                                — the scatter jax prints for `x.at[:, c].set(v)` on an [R, C] operand (one scatter
                                  index, the column; the update's axis the window over the rows) replaces column `c`
                                  by `v` and keeps every other column.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

variable {α : Type} {s si u : Shape} {w : Nat}

/-- A fold of scatter steps over update positions none of which lands on `i` leaves the element at `i` alone. -/
theorem foldl_not_hit (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
    (l.foldl (fun r n =>
        match d.resultIdx? (u.rowMajor.symm n) idx with
        | some i0 => fun i' => if i' = i0 then f (r i0) (upd (u.rowMajor.symm n)) else r i'
        | none => r) r) i = r i := by
  intro l
  induction l with
  | nil => intro r _; rfl
  | cons n l ih =>
    intro r h
    rw [List.foldl_cons, ih _ (fun n' hn' => h n' (List.mem_cons_of_mem _ hn'))]
    have hn := h n List.mem_cons_self
    cases hr : d.resultIdx? (u.rowMajor.symm n) idx with
    | none => rfl
    | some i0 =>
      have hne : ¬ i = i0 := fun e => hn (by rw [hr, e])
      simp [hne]

/-- No update lands on `i`: the scatter's element there is the operand's. -/
theorem scatter_of_not_hit (d : ScatterDims s si u) (f : α → α → α) (x : s.Idx → α) (idx : IVec si w) (upd : u.Idx → α)
    (i : s.Idx) (h : ∀ j : u.Idx, d.resultIdx? j idx ≠ some i) : Host.scatter d f x idx upd i = x i := by
  unfold Host.scatter
  exact foldl_not_hit d f idx upd i _ x (fun n _ => h _)

/-- A fold of SET steps over distinct update positions, exactly one of which (`n₀`) lands on `i`, leaves that update there. -/
theorem foldl_set_hit (d : ScatterDims s si u) (idx : IVec si w) (upd : u.Idx → α) (i : s.Idx) (n0 : Fin u.numel)
    (h0 : d.resultIdx? (u.rowMajor.symm n0) idx = some i)
    (hu : ∀ n, n ≠ n0 → d.resultIdx? (u.rowMajor.symm n) idx ≠ some i) :
    ∀ (l : List (Fin u.numel)) (r : s.Idx → α), l.Nodup → n0 ∈ l →
    (l.foldl (fun r n =>
        match d.resultIdx? (u.rowMajor.symm n) idx with
        | some i0 => fun i' => if i' = i0 then (fun (_ b : α) => b) (r i0) (upd (u.rowMajor.symm n)) else r i'
        | none => r) r) i = upd (u.rowMajor.symm n0) := by
  intro l
  induction l with
  | nil => intro r _ hm; exact absurd hm (List.not_mem_nil)
  | cons a l ih =>
    intro r hnd hm
    rw [List.foldl_cons]
    by_cases ha : a = n0
    · subst ha
      have hnot : a ∉ l := (List.nodup_cons.mp hnd).1
      rw [foldl_not_hit d (fun (_ b : α) => b) idx upd i l _ (fun n hn => hu n (fun e => hnot (e ▸ hn)))]
      simp [h0]
    · have hm' : n0 ∈ l := by
        rcases List.mem_cons.mp hm with e | e
        · exact absurd e.symm ha
        · exact e
      exact ih _ (List.nodup_cons.mp hnd).2 hm'

/-- The body returns the update and exactly one update position `j₀` lands on `i`: the element is that update. -/
theorem scatter_set_of_hit (d : ScatterDims s si u) (x : s.Idx → α) (idx : IVec si w) (upd : u.Idx → α) (i : s.Idx) (j0 : u.Idx)
    (h0 : d.resultIdx? j0 idx = some i) (hu : ∀ j, j ≠ j0 → d.resultIdx? j idx ≠ some i) :
    Host.scatter d (fun _ b => b) x idx upd i = upd j0 := by
  unfold Host.scatter
  have e : u.rowMajor.symm (u.rowMajor j0) = j0 := Equiv.symm_apply_apply _ _
  exact (foldl_set_hit d idx upd i (u.rowMajor j0) (by rw [e]; exact h0)
    (fun n hn => hu _ (fun ej => hn (by rw [← ej, Equiv.apply_symm_apply])))
    (List.finRange u.numel) x (List.nodup_finRange _) (List.mem_finRange _)).trans (congrArg upd e)

/-! ## Setting one column of a matrix -/

/-- The dimension numbers jax gives `stablehlo.scatter` for `x.at[:, c].set(v)` on an [R, C] operand: ONE scatter index
    (the index vector [c], on axis 0 of the scatter indices), the operand's column axis inserted and start-indexed, the
    update's one axis the window over the rows. Their conditions are decided on a program's literal shapes; a printed
    record with these fields is this one. -/
abbrev colSetDims (R C : Nat) (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

/-- Update position `j` (a row) lands on that row of column `c`, when the index word reads `c`. -/
theorem colSet_resultIdx {R C : Nat} (wf : ScatterDims.WF ⟨2, ![R, C]⟩ ⟨1, ![1]⟩ ⟨1, ![R]⟩ [0] [1] [1] 0)
    (idx : IVec ⟨1, ![1]⟩ w) (c : Fin C) (hc : (idx (ix1 (0 : Fin 1))).toInt = (c.val : Int)) (j : (⟨1, ![R]⟩ : Shape).Idx) :
    (colSetDims R C wf).resultIdx? j idx = some (ix2 (j 0) c) := by
  have hs0 : (colSetDims R C wf).start j idx 0 = 0 := by
    unfold ScatterDims.start
    rw [dif_neg (show (0 : Fin 2) ∉ ([1] : List (Fin 2)) by decide)]
  have hs1 : (colSetDims R C wf).start j idx 1 = (c.val : Int) := by
    unfold ScatterDims.start
    rw [dif_pos (List.mem_singleton.mpr rfl)]
    have hsi : (colSetDims R C wf).siIdx j
        ⟨List.idxOf (1 : Fin 2) (colSetDims R C wf).scatterDimsToOperandDims, List.idxOf_lt_length_iff.2 (List.mem_singleton.mpr rfl)⟩
        = ix1 (0 : Fin 1) := funext fun b => Fin.ext (by
      match b with
      | ⟨0, _⟩ => rfl)
    rw [hsi]; exact hc
  have hw0 : (colSetDims R C wf).window j 0 = (j 0).val := by
    unfold ScatterDims.window
    have h : (0 : Fin 2) ∈ (colSetDims R C wf).sKept :=
      (show (0 : Fin 2) ∈ (List.finRange 2).filter (· ∉ ([1] : List (Fin 2))) by decide)
    rw [dif_pos h]
    rfl
  have hw1 : (colSetDims R C wf).window j 1 = 0 := by
    unfold ScatterDims.window
    have h : (1 : Fin 2) ∉ (colSetDims R C wf).sKept :=
      (show (1 : Fin 2) ∉ (List.finRange 2).filter (· ∉ ([1] : List (Fin 2))) by decide)
    rw [dif_neg h]
  unfold ScatterDims.resultIdx?
  have hin : ∀ a, 0 ≤ (colSetDims R C wf).start j idx a + (colSetDims R C wf).window j a
      ∧ (colSetDims R C wf).start j idx a + (colSetDims R C wf).window j a < (⟨2, ![R, C]⟩ : Shape).size a := fun a => by
    match a with
    | ⟨0, _⟩ =>
      show 0 ≤ (colSetDims R C wf).start j idx 0 + ((colSetDims R C wf).window j 0 : Int)
        ∧ (colSetDims R C wf).start j idx 0 + ((colSetDims R C wf).window j 0 : Int) < (R : Int)
      rw [hs0, hw0]; have := (j 0).isLt
      have h2 : ((⟨1, ![R]⟩ : Shape).size 0) = R := rfl
      omega
    | ⟨1, _⟩ =>
      show 0 ≤ (colSetDims R C wf).start j idx 1 + ((colSetDims R C wf).window j 1 : Int)
        ∧ (colSetDims R C wf).start j idx 1 + ((colSetDims R C wf).window j 1 : Int) < (C : Int)
      rw [hs1, hw1]; have := c.isLt; omega
  rw [dif_pos hin]
  refine congrArg some (funext fun a => Fin.ext ?_)
  match a with
  | ⟨0, _⟩ =>
    show ((colSetDims R C wf).start j idx 0 + ((colSetDims R C wf).window j 0 : Int)).toNat = (j 0).val
    rw [hs0, hw0]; simp
  | ⟨1, _⟩ =>
    show ((colSetDims R C wf).start j idx 1 + ((colSetDims R C wf).window j 1 : Int)).toNat = c.val
    rw [hs1, hw1]; simp

/-- Column `c` after the set is the update, row by row. -/
theorem colSet_apply_col {R C : Nat} (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α) (c : Fin C)
    (hc : (idx (ix1 (0 : Fin 1))).toInt = (c.val : Int)) (r : Fin R) :
    Host.scatter (colSetDims R C wf) (fun _ b => b) x idx upd (ix2 r c) = upd (ix1 r) := by
  refine scatter_set_of_hit _ x idx upd (ix2 r c) (ix1 r) (colSet_resultIdx wf idx c hc (ix1 r)) (fun j hj => ?_)
  rw [colSet_resultIdx wf idx c hc j]
  intro e
  apply hj
  have e0 := congrFun (Option.some.inj e) 0
  rw [eq_ix1 j]
  exact congrArg ix1 e0

/-- Every other column is kept, whatever the body. -/
theorem colSet_apply_other {R C : Nat} (wf : ScatterDims.WF ⟨2, ![R, C]⟩ ⟨1, ![1]⟩ ⟨1, ![R]⟩ [0] [1] [1] 0) (f : α → α → α)
    (x : (⟨2, ![R, C]⟩ : Shape).Idx → α) (idx : IVec ⟨1, ![1]⟩ w) (upd : (⟨1, ![R]⟩ : Shape).Idx → α) (c : Fin C)
    (hc : (idx (ix1 (0 : Fin 1))).toInt = (c.val : Int)) (r : Fin R) (c' : Fin C) (hne : c' ≠ c) :
    Host.scatter (colSetDims R C wf) f x idx upd (ix2 r c') = x (ix2 r c') := by
  refine scatter_of_not_hit _ f x idx upd (ix2 r c') (fun j => ?_)
  rw [colSet_resultIdx wf idx c hc j]
  intro e
  exact hne (congrFun (Option.some.inj e) 1).symm

end Cert.LibScatterSet

end
-- ==== Proof.KernelAlgebra.lean ====
/-
  The two sums by which the kernel finds its center (no program imported).

  The kernel multiplies the one-hot row  [k = l]  (k the lane counter, l the row's label) into the augmented table
  [centers | ‖c‖² high | ‖c‖² low | 0 …]: each product sum over the 1024 table rows picks out the table's row l, whatever that
  row holds — on the extended reals 1·a = a and 0·a = 0 for every a —, and the 128 extra columns of that row then add up
  to the squared norm s, being s, s − s and zeros, once s is a real.
-/
import proofs.«416526_j15925738733576_3_alg».proof.Proof.Spec
import proofs.«416526_j15925738733576_3_alg».proof.Proof.LibOneHotTake

noncomputable section

namespace Cert.CenterLoss

open Idealize.ShloMosaic Idealize.ShloMosaic.ValueIdx

/-- The one-hot factor of lane `k` against label `l`: the compare bit widened to a word and read as a number. -/
abbrev hot (k : Fin 1024) (l : BitVec 32) : EReal :=
  ((((IntOp.cmpi .eq (BitVec.ofNat 32 k.val) l).setWidth 32).toInt : ℝ) : EReal)

theorem hot_self (l : BitVec 32) (hl : l.toNat < 1024) : hot ⟨l.toNat, hl⟩ l = 1 := by
  have h1 : IntOp.cmpi .eq (BitVec.ofNat 32 (⟨l.toNat, hl⟩ : Fin 1024).val) l = 1#1 :=
    StableHlo.Predicate.cmpi_eq_iff.mpr ((Cert.LibOneHotTake.col_word_eq_iff (by norm_num) l hl ⟨l.toNat, hl⟩).mpr rfl)
  unfold hot
  rw [h1]
  have : ((1#1 : BitVec 1).setWidth 32).toInt = 1 := by decide
  rw [this]; simp

theorem hot_ne (k : Fin 1024) (l : BitVec 32) (hl : l.toNat < 1024) (hk : k ≠ ⟨l.toNat, hl⟩) : hot k l = 0 := by
  have h0 : IntOp.cmpi .eq (BitVec.ofNat 32 k.val) l = 0#1 :=
    eq_zero_of_ne_one fun h => hk ((Cert.LibOneHotTake.col_word_eq_iff (by norm_num) l hl k).mp (StableHlo.Predicate.cmpi_eq_iff.mp h))
  unfold hot
  rw [h0]
  have : ((0#1 : BitVec 1).setWidth 32).toInt = 0 := by decide
  rw [this]; simp

/-- THE ONE-HOT PRODUCT SUM: the table's column summed against the one-hot row is the column's entry at the label. -/
theorem hot_mul_sum (x : Fin 1024 → EReal) (l : BitVec 32) (hl : l.toNat < 1024) :
    ∑ k : Fin 1024, hot k l * x k = x ⟨l.toNat, hl⟩ := by
  rw [Finset.sum_eq_single (⟨l.toNat, hl⟩ : Fin 1024)]
  · rw [hot_self l hl, one_mul]
  · intro k _ hk
    rw [hot_ne k l hl hk, zero_mul]
  · intro h; exact absurd (Finset.mem_univ _) h

/-- The 128 extra columns of a table row — the squared norm `s`, its low part `s − s`, zeros — add up to `s`. -/
theorem hi_lo_sum (a : Fin 128 → EReal) (s : ℝ) (h0 : a 0 = (s : EReal)) (h1 : a 1 = (s : EReal) - (s : EReal))
    (h2 : ∀ e : Fin 128, 2 ≤ e.val → a e = 0) : ∑ e, a e = (s : EReal) := by
  rw [Finset.sum_eq_single (0 : Fin 128), h0]
  · intro e _ he
    by_cases h : e = 1
    · rw [h, h1, coe_sub_self]
    · refine h2 e ?_
      have h0' : e.val ≠ 0 := fun hh => he (Fin.ext hh)
      have h1' : e.val ≠ 1 := fun hh => h (Fin.ext hh)
      omega
  · intro h; exact absurd (Finset.mem_univ _) h

end Cert.CenterLoss

end
-- ==== Proof.KernelTable.lean ====
/-
  What the host operations before the region leave in the two computed arrays the region stages.

  From the center table the program pads 24 zero rows, takes each padded row's squared norm s, and builds the augmented
  table [centers | extra]: the 128 extra columns are zeros with column 0 set to s (its high part: a format change is the
  identity on the extended reals) and column 1 set to s − s (its low part).  Read at a row l < 1000 the first 128 columns
  are the center's row, and the extra columns add up to the center's squared norm once that is a real.  The label column
  is the label vector reshaped to one column.
-/
import proofs.«416526_j15925738733576_3_alg».proof.Proof.Gen.KernelIdeal.Frame
import proofs.«416526_j15925738733576_3_alg».proof.Proof.Spec
import proofs.«416526_j15925738733576_3_alg».proof.Proof.LibScatterSet
import proofs.«416526_j15925738733576_3_alg».proof.Proof.KernelAlgebra
import Idealize.ShloMosaic.Lib.StableHlo.Run
import Idealize.ShloMosaic.Lib.Pipeline.Value
import Idealize.ShloMosaic.Lib.KernelVsHost
import Idealize.ShloMosaic.Lib.IdealHost
import Idealize.ShloMosaic.PureOps.Ideal.Laws

noncomputable section

namespace Cert.CenterLoss.Table

open Idealize.ShloMosaic Idealize.ShloMosaic.TcCoe Idealize.ShloMosaic.ValueIdx
open Cert.KernelIdeal Cert.KernelIdeal.Gen

/-! ## The host computation as functions of the center table -/

/-- The centers with 24 zero rows appended. -/
def padC (Cn : FVec Ideal S1000x128 .f32) : FVec Ideal S1024x128 .f32 :=
  pad S1024x128 ![0, 0] ![24, 0] ![0, 0] Cn (sitofp (F := Ideal) .f32 (constantI S_ 32 0#32))
    Gen.pads_S1000x128_S1024x128_0240_000 Gen.h_S_

/-- Each padded row's squared norm. -/
def sqN (Cn : FVec Ideal S1000x128 .f32) : FVec Ideal S1024 .f32 :=
  Host.reduceAdd (mulf (padC Cn) (padC Cn)) (constant (F := Ideal) S_ .f32 0x00000000#32) Gen.reducesTo_S1024x128_S1024_d1 Gen.h_S_

/-- Its high part: the squared norm itself, format changes being the identity here. -/
def hiP (Cn : FVec Ideal S1000x128 .f32) : FVec Ideal S1024 .bf16 := truncf .bf16 (sqN Cn) Gen.bitsLt_bf16_f32

/-- Its low part: the squared norm minus the high part. -/
def loP (Cn : FVec Ideal S1000x128 .f32) : FVec Ideal S1024 .bf16 :=
  truncf .bf16 (subf (sqN Cn) (extf .f32 (hiP Cn) Gen.bitsLt_bf16_f32)) Gen.bitsLt_bf16_f32

/-- The 128 extra columns: zeros, with column 0 set to the high part and column 1 to the low part. -/
def extra (Cn : FVec Ideal S1000x128 .f32) : FVec Ideal S1024x128 .bf16 :=
  Host.scatter scatter_S1024x128_S1_S1024_0_1_1_0 (fun _ b => b)
    (Host.scatter scatter_S1024x128_S1_S1024_0_1_1_0 (fun _ b => b)
      (broadcastInDim S1024x128 ![] Gen.bcast_S_S1024x128 (constant (F := Ideal) S_ .bf16 0x0000#16))
      (broadcastInDim S1 ![] Gen.bcast_S_S1 (constantI S_ 32 0#32)) (hiP Cn))
    (broadcastInDim S1 ![] Gen.bcast_S_S1 (constantI S_ 32 1#32)) (loP Cn)

/-- The augmented table: the padded centers beside the extra columns. -/
def table (Cn : FVec Ideal S1000x128 .f32) : FVec Ideal S1024x256 .bf16 :=
  concatenate S1024x256 1 [⟨S1024x128, truncf .bf16 (padC Cn) Gen.bitsLt_bf16_f32⟩, ⟨S1024x128, extra Cn⟩]
    Gen.concatenates_S1024x128_S1024x128_S1024x256_d1

/-! ## The pieces read at an element -/

/-- Row `l < 1000` of the padded table is the center's row. -/
theorem padC_apply (Cn : FVec Ideal S1000x128 .f32) (l : Fin 1000) (d : Fin 128) :
    padC Cn (ix2 ⟨l.val, Nat.lt_trans l.isLt (by norm_num)⟩ d) = Cn (ix2 l d) := by
  unfold padC
  refine pad_apply_of_inside _ _ _ Cn _ _ _ _ (ix2 l d) (fun a => ?_)
  match a with
  | ⟨0, _⟩ => show l.val = 0 + l.val * (0 + 1); omega
  | ⟨1, _⟩ => show d.val = 0 + d.val * (0 + 1); omega

/-- The reduced index `r` with column `k` put back is (r, k). -/
theorem lift_ix2 (h : S1024x128.Reduces [1] S1024) (r : Fin 1024) (k : Fin (S1024x128.size 1)) :
    h.lift (ix1 r) k = ix2 r (⟨k.val, k.isLt⟩ : Fin 128) := by
  funext a; apply Fin.ext
  fin_cases a <;> rfl

/-- The squared norm of padded row `r`, as a sum over its 128 entries. -/
theorem sqN_apply (Cn : FVec Ideal S1000x128 .f32) (r : Fin 1024) :
    sqN Cn (ix1 r) = ∑ d : Fin 128, padC Cn (ix2 r d) * padC Cn (ix2 r d) := by
  unfold sqN
  rw [hostReduceAdd_apply, Ideal.hostReduceAdd_single _ (by decide : S1024x128.Reduces [1] S1024), constant_apply,
    Ideal.ofBits_zero_f32, zero_add]
  refine Finset.sum_congr rfl fun k _ => ?_
  rw [lift_ix2]
  rfl

/-- Column `d < 128` of the augmented table is the padded centers' column. -/
theorem table_left (Cn : FVec Ideal S1000x128 .f32) (r : Fin 1024) (d : Fin 128) :
    table Cn (ix2 r ⟨d.val, Nat.lt_trans d.isLt (by norm_num)⟩) = padC Cn (ix2 r d) := by
  unfold table
  refine (concatenate_pair_apply_left (t := S1024x256) (s₁ := S1024x128) (s₂ := S1024x128) (1 : Fin 2) _ _ _ _ rfl (ix2 r d) (fun b => ?_)).trans rfl
  match b with
  | ⟨0, _⟩ => rfl
  | ⟨1, _⟩ => rfl

/-- Column `128 + e` of the augmented table is extra column `e`. -/
theorem table_right (Cn : FVec Ideal S1000x128 .f32) (r : Fin 1024) (e : Fin 128) :
    table Cn (ix2 r ⟨128 + e.val, by have := e.isLt; omega⟩) = extra Cn (ix2 r e) := by
  unfold table
  refine concatenate_pair_apply_right (t := S1024x256) (s₁ := S1024x128) (s₂ := S1024x128) (1 : Fin 2) _ _ _ _ rfl rfl (ix2 r e) (fun b hb => ?_) ?_
  · match b with
    | ⟨0, _⟩ => rfl
    | ⟨1, _⟩ => exact absurd rfl hb
  · show e.val + 128 = 128 + e.val
    omega

/-- The high part is the squared norm, -/
theorem hiP_apply (Cn : FVec Ideal S1000x128 .f32) (j : S1024.Idx) : hiP Cn j = sqN Cn j := rfl

/-- and the low part the squared norm minus itself. -/
theorem loP_apply (Cn : FVec Ideal S1000x128 .f32) (j : S1024.Idx) : loP Cn j = sqN Cn j - sqN Cn j := rfl

/-! ## The extra columns read at an element -/

/-- The index array of the first set reads column 0, -/
theorem idx0_toInt : ((broadcastInDim S1 ![] Gen.bcast_S_S1 (constantI S_ 32 0#32) : IVec S1 32) (ix1 (0 : Fin 1))).toInt = (((0 : Fin 128)).val : Int) := by
  rw [broadcastInDim_scalar_apply]; rfl

/-- and the second's column 1. -/
theorem idx1_toInt : ((broadcastInDim S1 ![] Gen.bcast_S_S1 (constantI S_ 32 1#32) : IVec S1 32) (ix1 (0 : Fin 1))).toInt = (((1 : Fin 128)).val : Int) := by
  rw [broadcastInDim_scalar_apply]; rfl

/-- Extra column 0 is the high part. -/
theorem extra_col0 (Cn : FVec Ideal S1000x128 .f32) (r : Fin 1024) : extra Cn (ix2 r (0 : Fin 128)) = hiP Cn (ix1 r) := by
  unfold extra
  refine (Cert.LibScatterSet.colSet_apply_other Gen.scatter_S1024x128_S1_S1024_0_1_1_0_wf _ _ _ _ (1 : Fin 128) idx1_toInt r (0 : Fin 128) (by decide)).trans ?_
  exact Cert.LibScatterSet.colSet_apply_col Gen.scatter_S1024x128_S1_S1024_0_1_1_0_wf _ _ _ (0 : Fin 128) idx0_toInt r

/-- Extra column 1 is the low part. -/
theorem extra_col1 (Cn : FVec Ideal S1000x128 .f32) (r : Fin 1024) : extra Cn (ix2 r (1 : Fin 128)) = loP Cn (ix1 r) := by
  unfold extra
  exact Cert.LibScatterSet.colSet_apply_col Gen.scatter_S1024x128_S1_S1024_0_1_1_0_wf _ _ _ (1 : Fin 128) idx1_toInt r

/-- Every further extra column is zero. -/
theorem extra_col_ge2 (Cn : FVec Ideal S1000x128 .f32) (r : Fin 1024) (e : Fin 128) (he : 2 ≤ e.val) : extra Cn (ix2 r e) = 0 := by
  unfold extra
  refine (Cert.LibScatterSet.colSet_apply_other Gen.scatter_S1024x128_S1_S1024_0_1_1_0_wf _ _ _ _ (1 : Fin 128) idx1_toInt r e
    (fun h => by rw [h] at he; exact absurd he (by decide))).trans ?_
  refine (Cert.LibScatterSet.colSet_apply_other Gen.scatter_S1024x128_S1_S1024_0_1_1_0_wf _ _ _ _ (0 : Fin 128) idx0_toInt r e
    (fun h => by rw [h] at he; exact absurd he (by decide))).trans ?_
  rw [broadcastInDim_scalar_apply, constant_apply, Ideal.ofBits_zero_bf16]

/-! ## The two arrays as the operations' composed terms -/

variable (m : (ℓ : Loc nD τ sig) → Buf (Elt Ideal) ℓ) (c : Dev nD)

set_option maxHeartbeats 2000000 in
/-- The augmented table the region finds is `table` of the centers as launched. -/
theorem v14_eq : (V m c main_v14 : S1024x256.Idx → EReal) = table (m ((c : Thread nD τ).loc main_arg2) : S1000x128.Idx → EReal) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons,
    List.flatten_nil, List.append_nil, List.cons_append, List.nil_append]
  after_results
  unfold table extra loP hiP sqN padC
  rfl

/-- The label column the region finds is the label vector as launched, reshaped. -/
theorem v0_eq : (V m c main_v0 : S65536x1.Idx → BitVec 32)
    = shapeCast S65536x1 (m ((c : Thread nD τ).loc main_arg1) : S65536.Idx → BitVec 32) Gen.shapeCasts_S65536_S65536x1 := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons,
    List.flatten_nil, List.append_nil, List.cons_append, List.nil_append]
  after_results
  rfl

/-! ## What the region reads there -/

/-- Row `l < 1000`, column `d < 128` of the augmented table is the center's entry. -/
theorem table_center (l : Fin 1000) (d : Fin 128) :
    (V m c main_v14 : S1024x256.Idx → EReal) (ix2 ⟨l.val, by omega⟩ ⟨d.val, by omega⟩)
      = (m ((c : Thread nD τ).loc main_arg2) : S1000x128.Idx → EReal) (ix2 l d) :=
  (congrFun (v14_eq m c) _).trans ((table_left _ ⟨l.val, Nat.lt_trans l.isLt (by norm_num)⟩ d).trans (padC_apply _ l d))

/-- The 128 extra columns of row `l < 1000` add up to the center's squared norm, the centers being finite: they are the
    squared norm `s`, `s − s`, and zeros. -/
theorem table_extra_sum
    (hC : ∀ j, ∃ a : ℝ, (m ((c : Thread nD τ).loc main_arg2) : S1000x128.Idx → EReal) j = (a : EReal)) (l : Fin 1000) :
    Finset.sum (M := EReal) Finset.univ (fun e : Fin 128 =>
        (V m c main_v14 : S1024x256.Idx → EReal) (ix2 ⟨l.val, by omega⟩ ⟨128 + e.val, by omega⟩))
      = Cert.CenterLoss.cSq (m ((c : Thread nD τ).loc main_arg2) : S1000x128.Idx → EReal) l := by
  obtain ⟨s, hs⟩ := Cert.CenterLoss.cSq_real (m ((c : Thread nD τ).loc main_arg2) : S1000x128.Idx → EReal) hC l
  have hsq : sqN (m ((c : Thread nD τ).loc main_arg2) : S1000x128.Idx → EReal) (ix1 ⟨l.val, Nat.lt_trans l.isLt (by norm_num)⟩)
      = (s : EReal) := by
    rw [sqN_apply, ← hs]
    unfold Cert.CenterLoss.cSq
    exact Finset.sum_congr rfl fun d _ => by rw [padC_apply]
  rw [hs]
  refine (Finset.sum_congr (M := EReal) rfl fun e _ =>
    (congrFun (v14_eq m c) _).trans (table_right _ ⟨l.val, Nat.lt_trans l.isLt (by norm_num)⟩ e)).trans ?_
  refine Cert.CenterLoss.hi_lo_sum (fun e => extra (m ((c : Thread nD τ).loc main_arg2) : S1000x128.Idx → EReal)
    (ix2 ⟨l.val, Nat.lt_trans l.isLt (by norm_num)⟩ e)) s ?_ ?_ (fun e he => extra_col_ge2 _ _ e he)
  · exact (extra_col0 _ _).trans ((hiP_apply _ _).trans hsq)
  · refine (extra_col1 _ _).trans ((loP_apply _ _).trans ?_)
    rw [hsq]

/-- Row `i` of the label column is label `i`. -/
theorem label_col (i : Fin 65536) :
    (V m c main_v0 : S65536x1.Idx → BitVec 32) (ix2 i (0 : Fin 1))
      = (m ((c : Thread nD τ).loc main_arg1) : S65536.Idx → BitVec 32) (ix1 i) := by
  refine (congrFun (v0_eq m c) _).trans (shapeCast_apply _ _ _ (ix1 i) ?_)
  rw [Shape.rowMajor_val_two, Shape.rowMajor_val_one]
  show i.val = i.val * 1 + 0
  omega

end Cert.CenterLoss.Table

end
-- ==== Proof.KernelBody.lean ====
/-
  What one grid point of the kernel stores, as a function of its three input blocks.

  A point holds a block `x0` of 2048 rows of the batch, the column `x1` of their 2048 labels and the whole augmented
  table `x2` (1024 rows: the centers in columns 0–127, the squared norm's high and low parts in columns 128 and 129,
  zeros after).  It builds the one-hot rows  [k = label]  over the lane counter k, multiplies them into the table
  (entry (r, e) of the product is `sel x1 x2 r e`: the sum over the table's rows of the one-hot factor times the table),
  takes the first 128 columns of the product as the center and the sum of the last 128 as its squared norm, forms
   ‖x‖² + ‖c‖² − 2⟨x, c⟩  row by row, clips it, and stores the sum over the 2048 rows as the point's one output element.
-/
import proofs.«416526_j15925738733576_3_alg».proof.Proof.Gen.KernelIdeal.Skeleton
import proofs.«416526_j15925738733576_3_alg».proof.Proof.KernelAlgebra
import Idealize.ShloMosaic.Lib.Pipeline.Value
import Idealize.ShloMosaic.Lib.ValueIdx
import Idealize.ShloMosaic.PureOps.Ideal.Laws

noncomputable section

namespace Cert.CenterLoss.Body

open Idealize.ShloMosaic Idealize.ShloMosaic.ValueIdx Cert.KernelIdeal Cert.KernelIdeal.Facts₀ Cert.CenterLoss

/-! ## The payload, piece by piece -/

/-- The one-hot rows: lane k of row r is 1 when k is the row's label, else 0. -/
def oneHotV (x1 : IVec S2048x1 32) : FVec Ideal S2048x1024 .bf16 :=
  truncf .bf16 (sitofp .f32 (extui 32 (cmpi .eq (iota .tc S2048x1024 32 [1] iota_S2048x1024_d1_w32)
    (broadcastTo S2048x1024 (shapeCast S2048x1 x1 shapeCasts_S2048x1_S2048x1) broadcasts_S2048x1_S2048x1024)) natLt_1_32)) bitsLt_bf16_f32

/-- The product of the one-hot rows and the table. -/
def prodV (x1 : IVec S2048x1 32) (x2 : FVec Ideal S1024x256 .bf16) : FVec Ideal S2048x256 .f32 :=
  matmul dot_S2048x1024_S1024x256_S2048x256_1_0_0_1_n_n none (oneHotV x1)
    (shapeCast S1024x256 x2 shapeCasts_S1024x256_S1024x256) (constant S2048x256 .f32 0x00000000#32)

/-- The clipped squared distance of every row, from the block and the product. -/
def lossV (x0 : FVec Ideal S2048x128 .f32) (p : FVec Ideal S2048x256 .f32) : FVec Ideal S2048x1 .f32 :=
  minimumf (broadcast S2048x1 (Scalar.ofBits .f32 0x5368D4A5#32))
    (maximumf (broadcast S2048x1 (Scalar.ofBits .f32 0x2B8CBCCC#32))
      (subf
        (addf
          (shapeCast S2048x1 (multiReduction .add [1] S2048 (mulf x0 x0) 0x00000000#32 reduces_S2048x128_S2048 (.inl rfl) rfl) shapeCasts_S2048_S2048x1)
          (shapeCast S2048x1 (multiReduction .add [1] S2048
            (extractStridedSlice S2048x128 ![0, 128] p slices_S2048x256_o0_128_S2048x128) 0x00000000#32 reduces_S2048x128_S2048 (.inl rfl) rfl) shapeCasts_S2048_S2048x1))
        (mulf (broadcast S2048x1 (Scalar.ofBits .f32 0x40000000#32))
          (shapeCast S2048x1 (multiReduction .add [1] S2048
            (mulf x0 (extractStridedSlice S2048x128 ![0, 0] p slices_S2048x256_o0_0_S2048x128)) 0x00000000#32 reduces_S2048x128_S2048 (.inl rfl) rfl) shapeCasts_S2048_S2048x1))))

/-- The stored value is the sum of the rows' losses, viewed [1, 1, 1]. -/
theorem pay_struct (x0 : FVec Ideal S2048x128 .f32) (x1 : IVec S2048x1 32) (x2 : FVec Ideal S1024x256 .bf16) :
    Gen.k0_pay1 (F := Ideal) x0 x1 x2
      = shapeCast S1x1x1 (shapeCast S1x1 (multiReduction .add [0] S1 (lossV x0 (prodV x1 x2)) 0x00000000#32 reduces_S2048x1_S1 (.inl rfl) rfl)
          shapeCasts_S1_S1x1) shapeCasts_S1x1_S1x1x1 := rfl

/-! ## Each piece at an index -/

theorem oneHotV_apply (x1 : IVec S2048x1 32) (r : Fin 2048) (k : Fin 1024) :
    oneHotV x1 (ix2 r k) = hot k (x1 (ix2 r (0 : Fin 1))) := by
  show ((((IntOp.cmpi .eq (iota .tc S2048x1024 32 [1] iota_S2048x1024_d1_w32 (ix2 r k))
      (broadcastTo S2048x1024 (shapeCast S2048x1 x1 shapeCasts_S2048x1_S2048x1) broadcasts_S2048x1_S2048x1024 (ix2 r k))).setWidth 32).toInt : ℝ) : EReal) = _
  rw [iota_single_apply, broadcastTo_apply _ broadcasts_S2048x1_S2048x1024 (ix2 r k) (ix2 r (0 : Fin 1)) (fun a => by
      match a with
      | ⟨0, _⟩ => show r.val = if (2048 : Nat) = 1 then 0 else r.val; rw [if_neg (by decide)]
      | ⟨1, _⟩ => show (0 : Nat) = if (1 : Nat) = 1 then 0 else _; rw [if_pos rfl]),
    shapeCast_self]

/-- Entry (r, e) of the one-hot product: the table's column e summed against row r's one-hot factors. -/
def sel (x1 : IVec S2048x1 32) (x2 : FVec Ideal S1024x256 .bf16) (r : Fin 2048) (e : Fin 256) : EReal :=
  ∑ k : Fin 1024, hot k (x1 (ix2 r (0 : Fin 1))) * x2 (ix2 k e)

theorem lhs_dot_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_dot_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_dot_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_dot_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- A matrix product into the zero accumulator, entry (r, e): the sum over the 1024 contracted rows. -/
theorem matmul_entry (a : FVec Ideal S2048x1024 .bf16) (b : FVec Ideal S1024x256 .bf16) (r : Fin 2048) (e : Fin 256) :
    (matmul dot_S2048x1024_S1024x256_S2048x256_1_0_0_1_n_n none a b (constant S2048x256 .f32 0x00000000#32) : FVec Ideal S2048x256 .f32) (ix2 r e)
      = ∑ k : Fin 1024, a (ix2 r k) * b (ix2 k e) := by
  simp only [matmul]
  rw [Ideal.matmul_constant_zero_apply, ← Equiv.sum_comp (ValueIdx.contrEquiv1 dot_S2048x1024_S1024x256_S2048x256_1_0_0_1_n_n 1024 rfl rfl).symm]
  refine Finset.sum_congr rfl fun k _ => ?_
  have hk := ValueIdx.contrEquiv1_symm_val dot_S2048x1024_S1024x256_S2048x256_1_0_0_1_n_n 1024 rfl rfl k
  have el : dot_S2048x1024_S1024x256_S2048x256_1_0_0_1_n_n.lhsIdx (ix2 r e) ((ValueIdx.contrEquiv1 dot_S2048x1024_S1024x256_S2048x256_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S2048x1024_S1024x256_S2048x256_1_0_0_1_n_n.rhsIdx (ix2 r e) ((ValueIdx.contrEquiv1 dot_S2048x1024_S1024x256_S2048x256_1_0_0_1_n_n 1024 rfl rfl).symm k) = ix2 k e := funext fun a => Fin.ext (by
    match a with
    | ⟨0, _⟩ => exact (rhs_dot_0 _ _).trans hk
    | ⟨1, _⟩ => exact rhs_dot_1 _ _)
  rw [el, er]

theorem prodV_apply (x1 : IVec S2048x1 32) (x2 : FVec Ideal S1024x256 .bf16) (r : Fin 2048) (e : Fin 256) :
    prodV x1 x2 (ix2 r e) = sel x1 x2 r e := by
  unfold prodV sel
  rw [matmul_entry, shapeCast_self]
  exact Finset.sum_congr rfl fun k _ => by rw [oneHotV_apply]

/-- A [2048] column viewed [2048, 1], read at row r. -/
theorem col_apply (v : FVec Ideal S2048 .f32) (r : Fin 2048) :
    (shapeCast S2048x1 v shapeCasts_S2048_S2048x1) (ix2 r (0 : Fin 1)) = v (ix1 r) :=
  shapeCast_apply v shapeCasts_S2048_S2048x1 (ix2 r (0 : Fin 1)) (ix1 r) (by
    rw [Shape.rowMajor_val_one, Shape.rowMajor_val_two]
    show r.val = r.val * 1 + 0
    omega)

/-- A lane sum of a [2048, 128] block at row r. -/
theorem laneSum_apply (v : FVec Ideal S2048x128 .f32) (r : Fin 2048) :
    multiReduction .add [1] S2048 v 0x00000000#32 reduces_S2048x128_S2048 (.inl rfl) rfl (ix1 r) = ∑ d : Fin 128, v (ix2 r d) := by
  refine (Ideal.multiReduction_add_single v 0x00000000#32 reduces_S2048x128_S2048 (.inl rfl) rfl (ix1 r)).trans ?_
  refine Finset.sum_congr rfl fun d _ => congrArg v (funext fun a => Fin.ext ?_)
  match a with
  | ⟨0, _⟩ => rfl
  | ⟨1, _⟩ => rfl

theorem slice_lo_apply (p : FVec Ideal S2048x256 .f32) (r : Fin 2048) (d : Fin 128) :
    extractStridedSlice S2048x128 ![0, 0] p slices_S2048x256_o0_0_S2048x128 (ix2 r d) = p (ix2 r ⟨d.val, by have := d.isLt; omega⟩) :=
  extractStridedSlice_apply _ p slices_S2048x256_o0_0_S2048x128 (ix2 r d) (ix2 r ⟨d.val, by have := d.isLt; omega⟩) (fun a => by
    match a with
    | ⟨0, _⟩ => show r.val = 0 + r.val; omega
    | ⟨1, _⟩ => show d.val = 0 + d.val; omega)

theorem slice_hi_apply (p : FVec Ideal S2048x256 .f32) (r : Fin 2048) (d : Fin 128) :
    extractStridedSlice S2048x128 ![0, 128] p slices_S2048x256_o0_128_S2048x128 (ix2 r d) = p (ix2 r ⟨128 + d.val, by have := d.isLt; omega⟩) :=
  extractStridedSlice_apply _ p slices_S2048x256_o0_128_S2048x128 (ix2 r d) (ix2 r ⟨128 + d.val, by have := d.isLt; omega⟩) (fun a => by
    match a with
    | ⟨0, _⟩ => show r.val = 0 + r.val; omega
    | ⟨1, _⟩ => show 128 + d.val = 128 + d.val; rfl)

theorem lossV_apply (x0 : FVec Ideal S2048x128 .f32) (p : FVec Ideal S2048x256 .f32) (r : Fin 2048) :
    lossV x0 p (ix2 r (0 : Fin 1))
      = min hi (max lo (((∑ d : Fin 128, x0 (ix2 r d) * x0 (ix2 r d)) + ∑ e : Fin 128, p (ix2 r ⟨128 + e.val, by have := e.isLt; omega⟩))
          - two * ∑ d : Fin 128, x0 (ix2 r d) * p (ix2 r ⟨d.val, by have := d.isLt; omega⟩))) := by
  unfold lossV
  rw [minimumf_apply, maximumf_apply, subf_apply, addf_apply, mulf_apply, col_apply, col_apply, col_apply,
    laneSum_apply, laneSum_apply, laneSum_apply]
  simp only [mulf_apply, slice_lo_apply, slice_hi_apply, broadcast_apply]
  rfl

/-! ## The stored element -/

/-- Row r of the point's block: its clipped squared distance to the table row its label selects. -/
def rowTerm (x0 : FVec Ideal S2048x128 .f32) (x1 : IVec S2048x1 32) (x2 : FVec Ideal S1024x256 .bf16) (r : Fin 2048) : EReal :=
  min hi (max lo (((∑ d : Fin 128, x0 (ix2 r d) * x0 (ix2 r d)) + ∑ e : Fin 128, sel x1 x2 r ⟨128 + e.val, by have := e.isLt; omega⟩)
    - two * ∑ d : Fin 128, x0 (ix2 r d) * sel x1 x2 r ⟨d.val, by have := d.isLt; omega⟩))

/-- THE PAYLOAD AT ITS ONE INDEX: the sum of the 2048 rows' terms. -/
theorem pay_eq (x0 : FVec Ideal S2048x128 .f32) (x1 : IVec S2048x1 32) (x2 : FVec Ideal S1024x256 .bf16) :
    Gen.k0_pay1 (F := Ideal) x0 x1 x2 (ix3 (0 : Fin 1) (0 : Fin 1) (0 : Fin 1)) = ∑ r : Fin 2048, rowTerm x0 x1 x2 r := by
  rw [pay_struct]
  rw [shapeCast_apply _ shapeCasts_S1x1_S1x1x1 (ix3 (0 : Fin 1) (0 : Fin 1) (0 : Fin 1)) (ix2 (0 : Fin 1) (0 : Fin 1)) (by
      rw [Shape.rowMajor_val_two, Shape.rowMajor_val_three]; rfl),
    shapeCast_apply _ shapeCasts_S1_S1x1 (ix2 (0 : Fin 1) (0 : Fin 1)) (ix1 (0 : Fin 1)) (by
      rw [Shape.rowMajor_val_one, Shape.rowMajor_val_two]; rfl)]
  refine (Ideal.multiReduction_add_single (lossV x0 (prodV x1 x2)) 0x00000000#32 reduces_S2048x1_S1 (.inl rfl) rfl (ix1 (0 : Fin 1))).trans ?_
  show ∑ r : Fin 2048, lossV x0 (prodV x1 x2) (reduces_S2048x1_S1.lift (ix1 (0 : Fin 1)) r) = _
  refine Finset.sum_congr rfl fun r _ => ?_
  have e : (reduces_S2048x1_S1.lift (ix1 (0 : Fin 1)) r : S2048x1.Idx) = ix2 r (0 : Fin 1) := funext fun a => Fin.ext (by
    match a with
    | ⟨0, _⟩ => rfl
    | ⟨1, _⟩ => rfl)
  rw [e, lossV_apply]
  unfold rowTerm
  simp only [prodV_apply]

/-! ## The rows against a table whose row the label selects -/

/-- The one-hot product picks the table's row at the label, column by column. -/
theorem sel_eq (x1 : IVec S2048x1 32) (x2 : FVec Ideal S1024x256 .bf16) (r : Fin 2048) (e : Fin 256)
    (hl : (x1 (ix2 r (0 : Fin 1))).toNat < 1024) :
    sel x1 x2 r e = x2 (ix2 ⟨(x1 (ix2 r (0 : Fin 1))).toNat, hl⟩ e) :=
  hot_mul_sum (fun k => x2 (ix2 k e)) _ hl

/-- Row r's term, once the row's label is the class `l`, the block's row is `Xr`, the table's row `l` holds the center
    `Cr` in its first 128 columns and its last 128 columns add up to `s`. -/
theorem rowTerm_eq (x0 : FVec Ideal S2048x128 .f32) (x1 : IVec S2048x1 32) (x2 : FVec Ideal S1024x256 .bf16)
    (r : Fin 2048) (l : Fin 1000) (Xr Cr : Fin 128 → EReal) (s : EReal)
    (hl : (x1 (ix2 r (0 : Fin 1))).toNat = l.val)
    (hx : ∀ d : Fin 128, x0 (ix2 r d) = Xr d)
    (hc : ∀ d : Fin 128, x2 (ix2 ⟨l.val, by have := l.isLt; omega⟩ ⟨d.val, by have := d.isLt; omega⟩) = Cr d)
    (hs : ∑ e : Fin 128, x2 (ix2 ⟨l.val, by have := l.isLt; omega⟩ ⟨128 + e.val, by have := e.isLt; omega⟩) = s) :
    rowTerm x0 x1 x2 r = min hi (max lo (((∑ d : Fin 128, Xr d * Xr d) + s) - two * ∑ d : Fin 128, Xr d * Cr d)) := by
  have hl' : (x1 (ix2 r (0 : Fin 1))).toNat < 1024 := by rw [hl]; have := l.isLt; omega
  have hf : (⟨(x1 (ix2 r (0 : Fin 1))).toNat, hl'⟩ : Fin 1024) = ⟨l.val, by have := l.isLt; omega⟩ := Fin.ext hl
  unfold rowTerm
  simp only [sel_eq x1 x2 r _ hl', hf, hx, hc, hs]

end Cert.CenterLoss.Body

end
-- ==== Proof.KernelArray.lean ====
/-
  From the grid's 32 points to the kernel's result.

  Point t of the grid reads rows 2048·t … 2048·t + 2047 of the batch and of the label column, and the whole augmented
  table; by the body's value (`Body.pay_eq`) and the table's contents it stores the block total of the specification into
  element (t, 0, 0) of the [32, 1, 1] output, the 32 elements tile that array, and the host operations after the region sum
  it and divide by the batch size: the run ends with the mean loss of the specification, the arguments unchanged.
  The three facts about the two arrays the host operations before the region computed (the table's center part, the sum
  of its extra columns, the label column) are taken as hypotheses here.
-/
import proofs.«416526_j15925738733576_3_alg».proof.Proof.Gen.KernelIdeal.Frame
import proofs.«416526_j15925738733576_3_alg».proof.Proof.KernelBody
import Idealize.ShloMosaic.Lib.StableHlo.Run
import Idealize.ShloMosaic.Lib.Pipeline.Value
import Idealize.ShloMosaic.PureOps.Ideal.Laws

set_option maxRecDepth 16384

noncomputable section

namespace Cert.CenterLoss.Arr

open Idealize.ShloMosaic Idealize.ShloMosaic.TcCoe Idealize.ShloMosaic.ValueIdx Idealize.SL.Sem
open Cert.KernelIdeal Cert.KernelIdeal.Gen Cert.CenterLoss
open Idealize.ShloMosaic.Pipeline (Dat)

variable (m : (ℓ : Loc nD τ sig) → Buf (Elt Ideal) ℓ) (ρ : Dev nD → PrngReg)

/-- The batch, the labels and the centers as core c finds them. -/
abbrev Xa (c : Dev nD) : SX.Idx → EReal := m ((c : Thread nD τ).loc main_arg0)
abbrev La (c : Dev nD) : SL.Idx → BitVec 32 := m ((c : Thread nD τ).loc main_arg1)
abbrev Ca (c : Dev nD) : SC.Idx → EReal := m ((c : Thread nD τ).loc main_arg2)
/-- The two arrays the host operations before the region computed: the augmented table and the label column. -/
abbrev tbl (c : Dev nD) : S1024x256.Idx → EReal := V m c main_v14
abbrev lcol (c : Dev nD) : S65536x1.Idx → BitVec 32 := V m c main_v0

/-- What is assumed of those two arrays and of the arguments on core c. -/
structure Hyps (c : Dev nD) : Prop where
  labels : ∀ i : Fin 65536, (La m c (ix1 i)).toNat < 1000
  center : ∀ (l : Fin 1000) (d : Fin 128), tbl m c (ix2 ⟨l.val, by have := l.isLt; omega⟩ ⟨d.val, by have := d.isLt; omega⟩) = Ca m c (ix2 l d)
  extra : ∀ l : Fin 1000, ∑ e : Fin 128, tbl m c (ix2 ⟨l.val, by have := l.isLt; omega⟩ ⟨128 + e.val, by have := e.isLt; omega⟩) = cSq (Ca m c) l
  col : ∀ i : Fin 65536, lcol m c (ix2 i (0 : Fin 1)) = La m c (ix1 i)

/-- A grid point as a block number. -/
abbrev blockNo (t : Fin cfg0.N) : Fin 32 := ⟨t.val, Nat.lt_of_lt_of_eq t.isLt N_0⟩

/-- The printed index maps, decided over the grid: the batch, label and output windows move one block per point along
    their first axis, the table's window stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks at a point -/

theorem xblk_apply (c : Dev nD) (t : Fin cfg0.N) (r : Fin 2048) (d : Fin 128) :
    (iblk m c 0 t : S2048x128.Idx → EReal) (ix2 r d) = Xa m c (ix2 (rowOf (blockNo t) r) d) := by
  show V m c main_arg0 (((cfg0.win 0).blk t).view.emb (ix2 r d)) = _
  rw [V_main_arg0]
  obtain ⟨e0, e1, -⟩ := idx_facts t
  refine congrArg _ (funext fun a => Fin.ext ?_)
  match a with
  | ⟨0, _⟩ => show win0_0.index t (0 : Fin 2) * 2048 + 1 * r.val = 2048 * t.val + r.val; omega
  | ⟨1, _⟩ => show win0_0.index t (1 : Fin 2) * 128 + 1 * d.val = d.val; omega

theorem lblk_apply (c : Dev nD) (t : Fin cfg0.N) (r : Fin 2048) :
    (iblk m c 1 t : S2048x1.Idx → BitVec 32) (ix2 r (0 : Fin 1)) = lcol m c (ix2 (rowOf (blockNo t) r) (0 : Fin 1)) := by
  show V m c main_v0 (((cfg0.win 1).blk t).view.emb (ix2 r (0 : Fin 1))) = _
  obtain ⟨-, -, e0, e1, -⟩ := idx_facts t
  refine congrArg _ (funext fun a => Fin.ext ?_)
  match a with
  | ⟨0, _⟩ => show win0_1.index t (0 : Fin 2) * 2048 + 1 * r.val = 2048 * t.val + r.val; omega
  | ⟨1, _⟩ => show win0_1.index t (1 : Fin 2) * 1 + 1 * 0 = 0; omega

theorem tblk_apply (c : Dev nD) (t : Fin cfg0.N) (k : Fin 1024) (e : Fin 256) :
    (iblk m c 2 t : S1024x256.Idx → EReal) (ix2 k e) = tbl m c (ix2 k e) := by
  show V m c main_v14 (((cfg0.win 2).blk t).view.emb (ix2 k e)) = _
  obtain ⟨-, -, -, -, e0, e1, -⟩ := idx_facts t
  refine congrArg _ (funext fun a => Fin.ext ?_)
  match a with
  | ⟨0, _⟩ => show win0_2.index t (0 : Fin 2) * 1024 + 1 * k.val = k.val; omega
  | ⟨1, _⟩ => show win0_2.index t (1 : Fin 2) * 256 + 1 * e.val = e.val; omega

/-! ## What a point stores -/

/-- Row r of point t contributes its row's loss of the specification. -/
theorem rowTerm_point (c : Dev nD) (h : Hyps m c) (t : Fin cfg0.N) (r : Fin 2048) :
    Body.rowTerm (iblk m c 0 t) (iblk m c 1 t) (iblk m c 2 t) r
      = rowLoss (Xa m c) (Ca m c) (rowOf (blockNo t) r) (lab (La m c) (rowOf (blockNo t) r)) := by
  refine (Body.rowTerm_eq (iblk m c 0 t) (iblk m c 1 t) (iblk m c 2 t) r (lab (La m c) (rowOf (blockNo t) r))
    (fun d => Xa m c (ix2 (rowOf (blockNo t) r) d)) (fun d => Ca m c (ix2 (lab (La m c) (rowOf (blockNo t) r)) d))
    (cSq (Ca m c) (lab (La m c) (rowOf (blockNo t) r))) ?_ ?_ ?_ ?_).trans ?_
  · rw [lblk_apply, h.col, lab_val _ _ (h.labels _)]
  · intro d; exact xblk_apply m c t r d
  · intro d; rw [tblk_apply]; exact h.center _ d
  · simp only [tblk_apply]; exact h.extra _
  · rfl

/-- The output array the run ends with: element (t, 0, 0) is block t's total. -/
def G3 (c : Dev nD) : S32x1x1.Idx → EReal := fun i => blockTotal (Xa m c) (La m c) (Ca m c) ⟨(i 0).val, (i 0).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

theorem eq_ix3_unit (j : S1x1x1.Idx) : j = ix3 (0 : Fin 1) (0 : Fin 1) (0 : Fin 1) := funext fun a => Fin.ext (by
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega)

/-- WHAT POINT t WRITES BACK is block t of `G3`. -/
theorem flushed3_eq (c : Dev nD) (h : Hyps m c) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S2048x128) hz2, View.ld_unit_zero (S := S2048x1) hz2, View.ld_unit_zero (S := S1024x256) hz2]
  funext j
  rw [eq_ix3_unit j]
  refine (Body.pay_eq (iblk m c 0 t) (iblk m c 1 t) (iblk m c 2 t)).trans ?_
  show _ = G3 m c (((cfg0.win 3).blk t).view.emb (ix3 (0 : Fin 1) (0 : Fin 1) (0 : Fin 1)))
  obtain ⟨-, -, -, -, -, -, e0, -⟩ := idx_facts t
  have hb : (⟨((((cfg0.win 3).blk t).view.emb (ix3 (0 : Fin 1) (0 : Fin 1) (0 : Fin 1))) 0).val,
      ((((cfg0.win 3).blk t).view.emb (ix3 (0 : Fin 1) (0 : Fin 1) (0 : Fin 1))) 0).isLt⟩ : Fin 32) = blockNo t :=
    Fin.ext (by show win0_3.index t (0 : Fin 3) * 1 + 1 * 0 = t.val; omega)
  unfold G3
  rw [hb]
  unfold blockTotal
  exact Finset.sum_congr rfl fun r _ => rowTerm_point m c h t r

/-- An index of the output array is in point t's block iff each coordinate is in the block's range on its axis. -/
theorem mem_blk3 (t : Fin cfg0.N) (i : S32x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v15).slice (win0_3.rect t)).set ↔ _
  rw [View.set_slice_whole, Rect.mem_set_unit]
  exact Iff.rfl

/-- Every element of the output is some point's. -/
theorem cover3 (i : S32x1x1.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 1 := (i 2).isLt
  refine ⟨⟨(i 0).val, by rw [show cfg0.N = 32 from N_0]; exact h0⟩, flush0_3 _, ?_⟩
  rw [mem_blk3]
  obtain ⟨-, -, -, -, -, -, e0, e1, e2⟩ := idx_facts ⟨(i 0).val, by rw [show cfg0.N = 32 from N_0]; exact h0⟩
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 1 ≤ (i 2).val ∧ (i 2).val < win0_3.index _ (2 : Fin 3) * 1 + 1
    rw [e2]; omega

/-- THE OUTPUT ARRAY after the run. -/
theorem final3 (c : Dev nD) (h : Hyps m c) : (dats m 0 c).arrAt 3 cfg0.N = G3 m c :=
  (dats m 0 c).arrAt_eq_of_cover 3 (G3 m c) (fun t _ => flushed3_eq m c h t) (cover3)

/-! ## The host operations after the region -/

/-- The 32 elements of the output, summed. -/
theorem sum_G3 (c : Dev nD) : ∑ i : S32x1x1.Idx, G3 m c i = total (Xa m c) (La m c) (Ca m c) := by
  rw [total_eq_blocks]
  let eqv : Fin 32 ≃ S32x1x1.Idx :=
    { toFun := fun t => ix3 t (0 : Fin 1) (0 : Fin 1)
      invFun := fun i => ⟨(i 0).val, (i 0).isLt⟩
      left_inv := fun t => rfl
      right_inv := fun i => funext fun a => Fin.ext (by
        match a with
        | ⟨0, _⟩ => rfl
        | ⟨1, _⟩ => have h : (i 1).val < 1 := (i 1).isLt; show 0 = (i 1).val; omega
        | ⟨2, _⟩ => have h : (i 2).val < 1 := (i 2).isLt; show 0 = (i 2).val; omega) }
  rw [← Equiv.sum_comp eqv]
  rfl

/-- The result buffer after the host operations that follow the region: the mean loss. -/
theorem tail_eq (c : Dev nD) (h : Hyps m c) :
    Pipeline.afterTail₀ cfgs (dats m) 0 (V0 m) [hostOps1] c main_v17 = meanLoss (Xa m c) (La m c) (Ca m c) := by
  unfold Pipeline.afterTail₀
  show StableHlo.after hostOps1 _ (Proc.devRef .tc main_v17) = _
  after_results
  rw [show (Pipeline.withArrays (cfgs 0).spec c (V0 m c) (fun w => (dats m 0 c).arrAt w (cfgs 0).N) (Proc.devRef .tc main_v15))
      = G3 m c from (Pipeline.withArrays_arr spec0 launch0.win.arr_inj c _ _ 3).trans (final3 m c h)]
  funext i
  show FloatOps.hostDivf (Host.reduceAdd (G3 m c) (constant (F := Ideal) S_ .f32 0x00000000#32) reducesTo_S32x1x1_S_d0_1_2 h_S_ i)
      (constant (F := Ideal) S_ .f32 0x47800000#32 i) = _
  simp only [Host.reduceAdd, Ideal.hostReduceAdd_def]
  rw [Ideal.hostReduceAdd_total reducesTo_S32x1x1_S_d0_1_2 (fun b => b.elim0), sum_G3]
  show Ideal.div (Ideal.ofBits .f32 0x00000000#32 + _) _ = _
  rw [Ideal.ofBits_zero_f32, zero_add]
  rfl

/-! ## The run -/

/-- Every weakly fair execution of the kernel program terminates with the mean loss in its result buffer and its arguments
    unchanged, on every core on which the hypotheses hold. -/
theorem run (h : ∀ c, Hyps m c) :
    θ_run defs (onTc (τ := τ) (main (F := Ideal))) ⟨m, fun _ => 0, ρ⟩ (fun r => ∀ c : Dev nD,
      r.2.mem ((c.tc : Thread nD τ).loc main_v17) = meanLoss (Xa m c) (La m c) (Ca m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c =>
    ⟨((hr c).2 main_v17 (Pipeline.mem_restRefs_of main_v17 (by decide) (by decide))).trans (tail_eq m c (h c)),
      ((hr c).1 0).trans (((dats m 0 c).arrAt_in 0 rfl _).trans ((A_eq m c 0).trans (V_main_arg0 m c))),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c)⟩)
    (run_main m ρ)

end Cert.CenterLoss.Arr

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.RefValue.lean ====
/-
  The reference's result as the specification's function of the argument arrays.

  The reference forms, for every row i and every class c, the clipped squared distance
  min(hi, max(lo, (‖x_i‖² + ‖c_{l_i}‖²) − 2·⟨x_i, c_c⟩)) (the center's squared norm is taken at the row's own label
  l_i, through the gathered rows centers[labels]), then takes column l_i of row i and averages over the rows.
  For labels in [0, 1000) nothing in the index plumbing acts: the wrap of negative labels leaves a label alone, the
  gathers' clamps leave it alone, and the in-range mask of the column take is 1, so the fill word is never selected.
  Stage by stage the value at a row is read off, and the sum over the [65536, 1] array is the sum over the rows.
-/
import proofs.«416526_j15925738733576_3_alg».proof.Proof.RefRead
import proofs.«416526_j15925738733576_3_alg».proof.Proof.Spec
import proofs.«416526_j15925738733576_3_alg».proof.Proof.LibOneHotTake
import proofs.«416526_j15925738733576_3_alg».proof.Proof.LibRowGather

noncomputable section

namespace Cert.CenterLoss.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.LibOneHotTake Cert.LibRowGather

/-! ## Indices: each layout stage reads its operand at the evident coordinates -/

theorem idx_v2 (p : Fin 65536) : idx_main_v2 (ix2 p (0 : Fin 1)) = ix1 p :=
  funext fun a => match a with | ⟨0, _⟩ => rfl
theorem idx_v8 (p : Fin 65536) : idx_main_v8 (ix2 p (0 : Fin 1)) = ix1 p :=
  funext fun a => match a with | ⟨0, _⟩ => rfl
theorem idx_v12 (p : Fin 65536) : idx_main_v12 (ix2 p (0 : Fin 1)) = ix1 p :=
  funext fun a => match a with | ⟨0, _⟩ => rfl
theorem idx_v21 (p : Fin 65536) : idx_main_v21 (ix2 p (0 : Fin 1)) = ix1 p :=
  funext fun a => match a with | ⟨0, _⟩ => rfl
theorem idx_v1 (p : Fin 65536) (k : Fin 128) : idx_main_v1 (ix1 p) k = ix2 p k :=
  funext fun a => match a with | ⟨0, _⟩ => rfl | ⟨1, _⟩ => rfl
theorem idx_v11 (p : Fin 65536) (k : Fin 128) : idx_main_v11 (ix1 p) k = ix2 p k :=
  funext fun a => match a with | ⟨0, _⟩ => rfl | ⟨1, _⟩ => rfl
theorem lidx_v15 (p : Fin 65536) (c : Fin 1000) (k : Fin 128) : lidx_main_v15 (ix2 p c) k = ix2 p k :=
  funext fun a => match a with | ⟨0, _⟩ => rfl | ⟨1, _⟩ => rfl
theorem ridx_v15 (p : Fin 65536) (c : Fin 1000) (k : Fin 128) : idx_main_v14 (ridx_main_v15 (ix2 p c) k) = ix2 c k :=
  funext fun a => match a with | ⟨0, _⟩ => rfl | ⟨1, _⟩ => rfl
theorem idx_v18 (p : Fin 65536) (c : Fin 1000) : idx_main_v18 (ix2 p c) = ix2 p (0 : Fin 1) :=
  funext fun a => match a with | ⟨0, _⟩ => rfl | ⟨1, _⟩ => rfl
theorem idx_c5 (p : Fin 65536) : idx_main_call1_v5 (ix3 p (0 : Fin 1) (0 : Fin 1)) = ix2 p (0 : Fin 1) :=
  funext fun a => match a with
    | ⟨0, _⟩ => Fin.ext (by show ((p.val * 1 + 0) * 1 + 0) / 1 = p.val; omega)
    | ⟨1, _⟩ => rfl

/-! ## Words: a label in [0, 1000) passes the wrap, the range test and the clamp unchanged -/

/-- The wrap of negative labels (l < 0 ? l + k : l) leaves a label below 1000 alone. -/
theorem wrap_of_small (l z k : BitVec 32) (h : l.toNat < 1000) (hz : z = 0#32) :
    Scalar.select (IntOp.cmpi .slt l z) (IntOp.addi l k) l = l := by
  subst hz
  rw [slt_zero_of_small l (by omega), select_zero]

/-- The range test 0 ≤ l ∧ l ≤ 999 of such a label is 1. -/
theorem inRange_of_small (l z m : BitVec 32) (h : l.toNat < 1000) (hz : z = 0#32) (hm : m = 999#32) :
    IntOp.andi (IntOp.cmpi .sge l z) (IntOp.cmpi .sle l m) = 1#1 := by
  subst hz; subst hm
  rw [sge_zero_of_small l (by omega), sle_of_small l 999 (by decide) (by omega)]
  rfl

/-- The gather's clamp of such a label into [0, 999] is its value. -/
theorem clamp_label (l : BitVec 32) (h : l.toNat < 1000) : min l.toInt.toNat (1000 - 1) = l.toNat :=
  clamp_of_small l 999 (by decide) (by omega)

section
variable (X : (⟨S65536x128, .f32⟩ : BufTy).Contents (Elt Ideal)) (L : (⟨S65536, .i32⟩ : BufTy).Contents (Elt Ideal))
  (Cn : (⟨S1000x128, .f32⟩ : BufTy).Contents (Elt Ideal)) (hL : ∀ i : Fin 65536, (L (ix1 i)).toNat < 1000)

/-! ## The gathered centers centers[labels] -/

include hL in
/-- The wrapped label of row i is the label. -/
theorem v7_row (i : Fin 65536) : val_main_v7 (F := Ideal) L (ix1 i) = L (ix1 i) := by
  rw [val_main_v7_apply, val_main_v4_apply, val_main_v6_apply, val_main_v3_apply, val_main_c_apply]
  exact wrap_of_small _ _ _ (hL i) rfl

/-- The printed dimension numbers of centers[labels] are those of a row gather. -/
theorem dims_v9 : gather_S1000x128_S65536x1_S65536x128_1_0_n_n_0_1_1128
    = rowGatherDims 1000 128 65536 gather_S1000x128_S65536x1_S65536x128_1_0_n_n_0_1_1128_wf := rfl

include hL in
/-- Row p of centers[labels] is the center of row p's label. -/
theorem v9_row (p : Fin 65536) (q : Fin 128) : val_main_v9 (F := Ideal) L Cn (ix2 p q) = Cn (ix2 (lab L p) q) := by
  unfold val_main_v9
  rw [dims_v9, gather_rows_apply (N := 1000) (D := 128) (n := 65536) (by decide) _ Cn (val_main_v8 (F := Ideal) L) p q]
  refine congrArg (fun r => Cn (ix2 r q)) (Fin.ext ?_)
  show min (val_main_v8 (F := Ideal) L (ix2 p (0 : Fin 1))).toInt.toNat (1000 - 1) = (lab L p).val
  rw [val_main_v8_apply, idx_v8, v7_row L hL, lab_val L p (hL p)]
  exact clamp_label _ (hL p)

/-! ## The two squared norms and the cross term -/

/-- ‖x_p‖², as the [65536, 1] column. -/
theorem v2_row (p : Fin 65536) :
    val_main_v2 (F := Ideal) X (ix2 p (0 : Fin 1)) = ∑ d : Fin 128, X (ix2 p d) * X (ix2 p d) := by
  rw [val_main_v2_apply, idx_v2, val_main_v1_apply, val_main_cst_apply, Ideal.ofBits_def, Ideal.ofBits_zero_f32, zero_add]
  refine Finset.sum_congr rfl fun k _ => ?_
  rw [idx_v1, val_main_v0_apply]
  rfl

include hL in
/-- ‖c_l‖² at row p's label, as the [65536, 1] column. -/
theorem v12_row (p : Fin 65536) : val_main_v12 (F := Ideal) L Cn (ix2 p (0 : Fin 1)) = cSq Cn (lab L p) := by
  rw [val_main_v12_apply, idx_v12, val_main_v11_apply, val_main_cst_1_apply, Ideal.ofBits_def, Ideal.ofBits_zero_f32, zero_add]
  unfold cSq
  refine Finset.sum_congr rfl fun k _ => ?_
  rw [idx_v11, val_main_v10_apply, v9_row L Cn hL]
  rfl

/-- ⟨x_p, c_c⟩: the product with the transposed table at (p, c). -/
theorem v15_at (p : Fin 65536) (c : Fin 1000) :
    val_main_v15 (F := Ideal) X Cn (ix2 p c) = ∑ d : Fin 128, X (ix2 p d) * Cn (ix2 c d) := by
  rw [val_main_v15_apply]
  refine Finset.sum_congr rfl fun k _ => ?_
  rw [lidx_v15, val_main_v14_apply, ridx_v15]

/-! ## The clipped distance matrix, and its column at the label -/

include hL in
/-- The clipped distance at (p, c): the center's norm is the label's, the cross term is class c's. -/
theorem v20_at (p : Fin 65536) (c : Fin 1000) :
    val_main_v20 (F := Ideal) X L Cn (ix2 p c)
      = min hi (max lo (((∑ d : Fin 128, X (ix2 p d) * X (ix2 p d)) + cSq Cn (lab L p))
          - two * ∑ d : Fin 128, X (ix2 p d) * Cn (ix2 c d))) := by
  rw [val_main_v20_apply, val_main_call0_v4_apply, val_main_call0_v3_apply, val_main_cst_4_apply,
    val_main_call0_v2_apply, val_main_call0_v1_apply, val_main_call0_v0_apply, val_main_cst_3_apply,
    val_main_v19_apply, val_main_v18_apply, idx_v18, val_main_v13_apply, v2_row, v12_row L Cn hL,
    val_main_v17_apply, val_main_v16_apply, val_main_cst_2_apply, v15_at]
  rfl

include hL in
/-- The in-range mask of the column take is 1 at every row. -/
theorem c12_row (j : S65536x1.Idx) : val_main_call1_v12 (F := Ideal) L j = 1#1 := by
  unfold val_main_call1_v12
  refine reduce_andi_of_forall _ _ _ _ rfl (fun i => ?_) j
  rw [val_main_call1_v11_apply, val_main_call1_v7_apply, val_main_call1_v10_apply, val_main_call1_v5_apply,
    val_main_call1_v4_apply, val_main_call1_v1_apply, val_main_call1_v3_apply, val_main_call1_v0_apply,
    val_main_call1_c_apply, val_main_v21_apply, val_main_call1_v6_apply, val_main_call1_c_2_apply,
    val_main_call1_v9_apply, val_main_call1_v8_apply, val_main_call1_c_1_apply]
  have h : (L (idx_main_v21 (idx_main_call1_v5 i))).toNat < 1000 := by
    rw [eq_ix1 (idx_main_v21 (idx_main_call1_v5 i))]
    exact hL _
  rw [wrap_of_small _ _ _ h rfl]
  exact inRange_of_small _ _ _ h rfl rfl

/-- The printed dimension numbers of the column take are those of a row take. -/
theorem dims_c13 : gather_S65536x1000_S65536x1x1_S65536x1_n_1_0_0_1_2_11
    = rowTakeDims 65536 1000 gather_S65536x1000_S65536x1x1_S65536x1_n_1_0_0_1_2_11_wf := rfl

include hL in
/-- The start index of row p's column take is the label. -/
theorem c5_row (p : Fin 65536) :
    val_main_call1_v5 (F := Ideal) L (ix3 p (0 : Fin 1) (0 : Fin 1)) = L (ix1 p) := by
  rw [val_main_call1_v5_apply, idx_c5, val_main_call1_v4_apply, val_main_call1_v1_apply, val_main_call1_v3_apply,
    val_main_call1_v0_apply, val_main_call1_c_apply, val_main_v21_apply, idx_v21]
  exact wrap_of_small _ _ _ (hL p) rfl

include hL in
/-- Row p of the result of the column take is row p's contribution. -/
theorem v22_row (p : Fin 65536) :
    val_main_v22 (F := Ideal) X L Cn (ix2 p (0 : Fin 1)) = rowLoss X Cn p (lab L p) := by
  rw [val_main_v22_apply, c12_row L hL, select_one]
  unfold val_main_call1_v13
  rw [dims_c13, gather_rowTake_apply (N := 65536) (C := 1000) (by decide) _ (val_main_v20 (F := Ideal) X L Cn) (val_main_call1_v5 (F := Ideal) L) p]
  have e : (⟨min (val_main_call1_v5 (F := Ideal) L (ix3 p (0 : Fin 1) (0 : Fin 1))).toInt.toNat (1000 - 1), by omega⟩ : Fin 1000)
      = lab L p := Fin.ext (by
    show min (val_main_call1_v5 (F := Ideal) L (ix3 p (0 : Fin 1) (0 : Fin 1))).toInt.toNat (1000 - 1) = (lab L p).val
    rw [c5_row L hL, lab_val L p (hL p)]
    exact clamp_label _ (hL p))
  rw [e, v20_at X L Cn hL]
  rfl

/-! ## The sum over the rows and the mean -/

include hL in
/-- The sum of the [65536, 1] column is the total over the rows. -/
theorem v23_eq (i : S_.Idx) : val_main_v23 (F := Ideal) X L Cn i = total X L Cn := by
  rw [val_main_v23_apply, val_main_cst_5_apply, Ideal.ofBits_def, Ideal.ofBits_zero_f32, zero_add, sum_idx2]
  unfold total
  refine Finset.sum_congr rfl fun p _ => ?_
  rw [Fin.sum_univ_one, v22_row X L Cn hL]

include hL in
/-- THE REFERENCE'S RESULT is the specification's mean loss. -/
theorem result_eq : val_main_v24 (F := Ideal) X L Cn = meanLoss X L Cn := by
  funext i
  rw [val_main_v24_apply, v23_eq X L Cn hL, val_main_cst_6_apply]
  rfl

end

end Cert.CenterLoss.Ref

end
-- ==== Proof.lean ====
/-
  The center loss of a batch against its labels' centers: the Pallas kernel against the jnp reference, over the extended reals.

  Both programs compute the mean over 65536 rows of the squared distance ‖x_i‖² + ‖c_l‖² − 2⟨x_i, c_l⟩ to the center `c_l` of the row's
  label `l`, clipped into [1e-12, 1e12] (Proof/Spec.lean).  The reference forms the whole [65536, 1000] distance matrix, clips it and
  takes column `l` of row `i` (Proof/RefValue.lean, over the run of the reference read back operation by operation).  The kernel finds the center by a one-hot
  matrix product into a table augmented with the squared norms as a high part `s` and a low part `s − s` (read at Ideal, where
  a change of float format is the identity), and adds the rows' contributions block by block: what the host operations before the
  region leave in that table is Proof/KernelTable.lean, what a grid point stores Proof/KernelBody.lean, the output array and the host
  operations after the region Proof/KernelArray.lean.  The two results are one function of the arguments once every label is a class in
  [0, 1000) — outside that range the reference reads another row or a NaN fill — and every center entry is finite, so that `s − s = 0`
  (Proof/PreDecode.lean reads both off the precondition).  The frames of the two kernel programs are the generated ones; the
  reference's frame is its run with the result dropped; the idealization rewrote nothing, so `preserves` is trivial.
-/
import proofs.«416526_j15925738733576_3_alg».proof.Defs
import proofs.«416526_j15925738733576_3_alg».proof.Proof.Gen.Kernel
import proofs.«416526_j15925738733576_3_alg».proof.Proof.Gen.Kernel.Skeleton
import proofs.«416526_j15925738733576_3_alg».proof.Proof.Gen.Kernel.Launch
import proofs.«416526_j15925738733576_3_alg».proof.Proof.Gen.Kernel.Points
import proofs.«416526_j15925738733576_3_alg».proof.Proof.Gen.Kernel.Frame
import proofs.«416526_j15925738733576_3_alg».proof.Proof.Gen.KernelIdeal
import proofs.«416526_j15925738733576_3_alg».proof.Proof.Gen.KernelIdeal.Skeleton
import proofs.«416526_j15925738733576_3_alg».proof.Proof.Gen.KernelIdeal.Launch
import proofs.«416526_j15925738733576_3_alg».proof.Proof.Gen.KernelIdeal.Points
import proofs.«416526_j15925738733576_3_alg».proof.Proof.Gen.KernelIdeal.Frame
import proofs.«416526_j15925738733576_3_alg».proof.Proof.Gen.ReferenceIdeal
import proofs.«416526_j15925738733576_3_alg».proof.Proof.RefRun
import proofs.«416526_j15925738733576_3_alg».proof.Proof.RefRead
import proofs.«416526_j15925738733576_3_alg».proof.Proof.Gen.Pre_finite_inputs
import proofs.«416526_j15925738733576_3_alg».proof.Proof.PreDecode
import proofs.«416526_j15925738733576_3_alg».proof.Proof.KernelTable
import proofs.«416526_j15925738733576_3_alg».proof.Proof.KernelArray
import proofs.«416526_j15925738733576_3_alg».proof.Proof.RefValue
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference's frame: its generated run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Under the precondition the kernel's run ends at the specification's mean loss of its arguments, and so does the reference's,
    of arguments that agree. -/
theorem algebraic : Cert.algebraic_KernelIdeal_ReferenceIdeal := by
  intro m ρ m' ρ' hpre hagree
  have hdec := fun c => Cert.CenterLoss.Pre.decode _ _ _ (hpre c)
  have hyps : ∀ c, Cert.CenterLoss.Arr.Hyps m c := fun c =>
    ⟨(hdec c).2, fun l d => Cert.CenterLoss.Table.table_center m c l d,
      fun l => Cert.CenterLoss.Table.table_extra_sum m c (hdec c).1 l, fun i => Cert.CenterLoss.Table.label_col m c i⟩
  refine ⟨fun c => Cert.CenterLoss.meanLoss (Cert.CenterLoss.Arr.Xa m c) (Cert.CenterLoss.Arr.La m c) (Cert.CenterLoss.Arr.Ca m c),
    Cert.CenterLoss.Arr.run m ρ hyps, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.ReadP.val_main_v24_eq _ _ _).trans (Cert.CenterLoss.Ref.result_eq _ _ _ (hdec c).2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
